-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S1600000x4 : Shape := ⟨2, ![1600000, 4]⟩
abbrev S4x7 : Shape := ⟨2, ![4, 7]⟩
abbrev S7 : Shape := ⟨1, ![7]⟩
abbrev S4x64 : Shape := ⟨2, ![4, 64]⟩
abbrev S64 : Shape := ⟨1, ![64]⟩
abbrev S7x64 : Shape := ⟨2, ![7, 64]⟩
abbrev S64x64 : Shape := ⟨2, ![64, 64]⟩
abbrev S64x12 : Shape := ⟨2, ![64, 12]⟩
abbrev S12 : Shape := ⟨1, ![12]⟩
abbrev S2x1600000 : Shape := ⟨2, ![2, 1600000]⟩
abbrev S100000 : Shape := ⟨1, ![100000]⟩
abbrev S_ : Shape := ⟨0, ![]⟩
abbrev S1x1600000 : Shape := ⟨2, ![1, 1600000]⟩
abbrev S1600000 : Shape := ⟨1, ![1600000]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S4x7 : S_.BroadcastsInDim S4x7 (![] : Fin 0 → Fin S4x7.rank)
  reducesTo_S4x7_S_d0_1 : S4x7.ReducesTo [0, 1] S_
  bcast_S_S7 : S_.BroadcastsInDim S7 (![] : Fin 0 → Fin S7.rank)
  reducesTo_S7_S_d0 : S7.ReducesTo [0] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S7x64 : S_.BroadcastsInDim S7x64 (![] : Fin 0 → Fin S7x64.rank)
  reducesTo_S7x64_S_d0_1 : S7x64.ReducesTo [0, 1] S_
  bcast_S_S64x64 : S_.BroadcastsInDim S64x64 (![] : Fin 0 → Fin S64x64.rank)
  reducesTo_S64x64_S_d0_1 : S64x64.ReducesTo [0, 1] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v78 : IVec S_ 1) (main_v82 : IVec S1600000 1) (main_v84 : IVec S1600000 32) (main_v85 : IVec S1600000 32) : IVec S_ 1 :=
  let main_v86 : IVec S1600000 1 := cmpi .slt main_v84 main_v85
  let main_v87 : IVec S1600000 1 := andi main_v82 main_v86
  let main_c_32 : IVec S_ 1 := constantI S_ 1 1#1
  let main_v88 : IVec S_ 1 := (fun x v => Host.reduce IntOp.andi x v reducesTo_S1600000_S_d0 h_S_) main_v87 main_c_32
  let main_v89 : IVec S_ 1 := andi main_v78 main_v88
  main_v89

def fn_part4 {F : FTy → Type} [FloatOps F] (main_arg14 : FVec F S64x12 .f32) (main_arg15 : FVec F S12 .f32) (main_arg16 : IVec S2x1600000 32) (main_v63 : IVec S_ 1) (main_v67 : IVec S_ 1) : IVec S_ 1 :=
  let main_v68 : IVec S_ 1 := andi main_v63 main_v67
  let main_v69 : FVec F S64x12 .f32 := Host.absf main_arg14
  let main_cst_26 : FVec F S_ .f32 := constant S_ .f32 0x7F800000#32
  let main_v70 : FVec F S64x12 .f32 := broadcastInDim S64x12 ![] bcast_S_S64x12 main_cst_26
  let main_v71 : IVec S64x12 1 := cmpf .olt main_v69 main_v70
  let main_c_27 : IVec S_ 1 := constantI S_ 1 1#1
  let main_v72 : IVec S_ 1 := (fun x v => Host.reduce IntOp.andi x v reducesTo_S64x12_S_d0_1 h_S_) main_v71 main_c_27
  let main_v73 : IVec S_ 1 := andi main_v68 main_v72
  let main_v74 : FVec F S12 .f32 := Host.absf main_arg15
  let main_cst_28 : FVec F S_ .f32 := constant S_ .f32 0x7F800000#32
  let main_v75 : FVec F S12 .f32 := broadcastInDim S12 ![] bcast_S_S12 main_cst_28
  let main_v76 : IVec S12 1 := cmpf .olt main_v74 main_v75
  let main_c_29 : IVec S_ 1 := constantI S_ 1 1#1
  let main_v77 : IVec S_ 1 := (fun x v => Host.reduce IntOp.andi x v reducesTo_S12_S_d0 h_S_) main_v76 main_c_29
  let main_v78 : IVec S_ 1 := andi main_v73 main_v77
  let main_v79 : IVec S1x1600000 32 := (extractStridedSlice S1x1600000 ![0, 0] · slices_S2x1600000_S1x1600000_0_0) main_arg16
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_v83 : IVec S1x1600000 32 := (extractStridedSlice S1x1600000 ![0, 0] · slices_S2x1600000_S1x1600000_0_0) main_arg16
  let main_v84 : IVec S1600000 32 := shapeCast S1600000 main_v83 shapeCasts_S1x1600000_S1600000
  let main_c_31 : IVec S_ 32 := constantI S_ 32 100000#32
  let main_v85 : IVec S1600000 32 := broadcastInDim S1600000 ![] bcast_S_S1600000 main_c_31
  fn_part5 (F := F) main_v78 main_v82 main_v84 main_v85

def fn_part3 {F : FTy → Type} [FloatOps F] (main_arg11 : FVec F S64 .f32) (main_arg12 : FVec F S64x64 .f32) (main_arg13 : FVec F S64 .f32) (main_arg14 : FVec F S64x12 .f32) (main_arg15 : FVec F S12 .f32) (main_arg16 : IVec S2x1600000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x12 .f32) (main_arg15 : FVec F S12 .f32) (main_arg16 : IVec S2x1600000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_v48 main_v49 main_v50

def fn_part1 {F : FTy → Type} [FloatOps F] (main_arg4 : FVec F S4x64 .f32) (main_arg5 : FVec F S64 .f32) (main_arg6 : FVec F S7x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x12 .f32) (main_arg15 : FVec F S12 .f32) (main_arg16 : IVec S2x1600000 32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S7x64 .f32 := Host.absf main_arg6
  let main_cst_10 : FVec F S_ .f32 := constant S_ .f32 0x7F800000#32
  let main_v30 : FVec F S7x64 .f32 := broadcastInDim S7x64 ![] bcast_S_S7x64 main_cst_10
  let main_v31 : IVec S7x64 1 := cmpf .olt main_v29 main_v30
  let main_c_11 : IVec S_ 1 := constantI S_ 1 1#1
  let main_v32 : IVec S_ 1 := (fun x v => Host.reduce IntOp.andi x v reducesTo_S7x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x7 .f32) (main_arg1 : FVec F S1600000x4 .f32) (main_arg2 : FVec F S4x7 .f32) (main_arg3 : FVec F S7 .f32) (main_arg4 : FVec F S4x64 .f32) (main_arg5 : FVec F S64 .f32) (main_arg6 : FVec F S7x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x12 .f32) (main_arg15 : FVec F S12 .f32) (main_arg16 : IVec S2x1600000 32) (main_arg17 : IVec S100000 32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S1600000x4 .f32 := Host.absf main_arg1
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S4x7 .f32 := Host.absf main_arg2
  let main_cst_2 : FVec F S_ .f32 := constant S_ .f32 0x7F800000#32
  let main_v10 : FVec F S4x7 .f32 := broadcastInDim S4x7 ![] bcast_S_S4x7 main_cst_2
  let main_v11 : IVec S4x7 1 := cmpf .olt main_v9 main_v10
  let main_c_3 : IVec S_ 1 := constantI S_ 1 1#1
  let main_v12 : IVec S_ 1 := (fun x v => Host.reduce IntOp.andi x v reducesTo_S4x7_S_d0_1 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x7 : Shape := ⟨2, ![100000, 7]⟩
abbrev S1600000x4 : Shape := ⟨2, ![1600000, 4]⟩
abbrev S4x7 : Shape := ⟨2, ![4, 7]⟩
abbrev S7 : Shape := ⟨1, ![7]⟩
abbrev S4x64 : Shape := ⟨2, ![4, 64]⟩
abbrev S64 : Shape := ⟨1, ![64]⟩
abbrev S7x64 : Shape := ⟨2, ![7, 64]⟩
abbrev S64x64 : Shape := ⟨2, ![64, 64]⟩
abbrev S64x12 : Shape := ⟨2, ![64, 12]⟩
abbrev S12 : Shape := ⟨1, ![12]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1600000x7 : Shape := ⟨2, ![1600000, 7]⟩
abbrev S8000x4 : Shape := ⟨2, ![8000, 4]⟩
abbrev S8000x7 : Shape := ⟨2, ![8000, 7]⟩
abbrev S1x7 : Shape := ⟨2, ![1, 7]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S100000x64 : Shape := ⟨2, ![100000, 64]⟩
abbrev S5000x7 : Shape := ⟨2, ![5000, 7]⟩
abbrev S5000x64 : Shape := ⟨2, ![5000, 64]⟩
abbrev S1x64 : Shape := ⟨2, ![1, 64]⟩
abbrev S1600000x64 : Shape := ⟨2, ![1600000, 64]⟩
abbrev S8000x64 : Shape := ⟨2, ![8000, 64]⟩
abbrev S1000x64 : Shape := ⟨2, ![1000, 64]⟩
abbrev S100000x1 : Shape := ⟨2, ![100000, 1]⟩
abbrev S1000x1 : Shape := ⟨2, ![1000, 1]⟩
abbrev S1000x12 : Shape := ⟨2, ![1000, 12]⟩
abbrev S1x12 : Shape := ⟨2, ![1, 12]⟩

abbrev nBuf : Space → Nat
  | .hbm => 107
  | .vmem => 32
  | .smem => 0
  | _ => 0

abbrev bufTy : (tb : Table) → Fin (tcTables nBuf tb) → BufTy
  | .hbm, ⟨0, _⟩ => ⟨S100000x7, .f32⟩
  | .hbm, ⟨1, _⟩ => ⟨S1600000x4, .f32⟩
  | .hbm, ⟨2, _⟩ => ⟨S4x7, .f32⟩
  | .hbm, ⟨3, _⟩ => ⟨S7, .f32⟩
  | .hbm, ⟨4, _⟩ => ⟨S4x64, .f32⟩
  | .hbm, ⟨5, _⟩ => ⟨S64, .f32⟩
  | .hbm, ⟨6, _⟩ => ⟨S7x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x12, .f32⟩
  | .hbm, ⟨15, _⟩ => ⟨S12, .f32⟩
  | .hbm, ⟨16, _⟩ => ⟨S2x1600000, .i32⟩
  | .hbm, ⟨17, _⟩ => ⟨S100000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1600000x7, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1, .i32⟩
  | .hbm, ⟨32, _⟩ => ⟨S_, .i32⟩
  | .hbm, ⟨33, _⟩ => ⟨S1600000x1, .i32⟩
  | .hbm, ⟨34, _⟩ => ⟨S1600000x1, .i1⟩
  | .hbm, ⟨35, _⟩ => ⟨S1x1, .i32⟩
  | .hbm, ⟨36, _⟩ => ⟨S1600000x1, .i32⟩
  | .hbm, ⟨37, _⟩ => ⟨S1600000x1, .i1⟩
  | .hbm, ⟨38, _⟩ => ⟨S1600000x1, .i1⟩
  | .hbm, ⟨39, _⟩ => ⟨S_, .i1⟩
  | .hbm, ⟨40, _⟩ => ⟨S1600000, .i1⟩
  | .hbm, ⟨41, _⟩ => ⟨S1600000x7, .f32⟩
  | .hbm, ⟨42, _⟩ => ⟨S1600000x7, .i1⟩
  | .hbm, ⟨43, _⟩ => ⟨S_, .f32⟩
  | .hbm, ⟨44, _⟩ => ⟨S1600000x7, .f32⟩
  | .hbm, ⟨45, _⟩ => ⟨S1600000x7, .f32⟩
  | .hbm, ⟨46, _⟩ => ⟨S1600000x7, .f32⟩
  | .hbm, ⟨47, _⟩ => ⟨S_, .f32⟩
  | .hbm, ⟨48, _⟩ => ⟨S1600000x7, .f32⟩
  | .hbm, ⟨49, _⟩ => ⟨S1600000x7, .f32⟩
  | .hbm, ⟨50, _⟩ => ⟨S_, .f32⟩
  | .hbm, ⟨51, _⟩ => ⟨S100000x7, .f32⟩
  | .hbm, ⟨52, _⟩ => ⟨S1600000x1, .i32⟩
  | .hbm, ⟨53, _⟩ => ⟨S100000x7, .f32⟩
  | .hbm, ⟨54, _⟩ => ⟨S100000x64, .f32⟩
  | .hbm, ⟨55, _⟩ => ⟨S1600000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x64, .f32⟩
  | .hbm, ⟨75, _⟩ => ⟨S1600000x64, .i1⟩
  | .hbm, ⟨76, _⟩ => ⟨S_, .f32⟩
  | .hbm, ⟨77, _⟩ => ⟨S1600000x64, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S1600000x64, .f32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S1000x64, .f32⟩
  | .hbm, ⟨90, _⟩ => ⟨S100000x1, .i32⟩
  | .hbm, ⟨91, _⟩ => ⟨S1000x64, .f32⟩
  | .hbm, ⟨92, _⟩ => ⟨S_, .f32⟩
  | .hbm, ⟨93, _⟩ => ⟨S100000x1, .f32⟩
  | .hbm, ⟨94, _⟩ => ⟨S_, .f32⟩
  | .hbm, ⟨95, _⟩ => ⟨S1000x1, .f32⟩
  | .hbm, ⟨96, _⟩ => ⟨S100000x1, .i32⟩
  | .hbm, ⟨97, _⟩ => ⟨S1000x1, .f32⟩
  | .hbm, ⟨98, _⟩ => ⟨S_, .f32⟩
  | .hbm, ⟨99, _⟩ => ⟨S1000x1, .f32⟩
  | .hbm, ⟨100, _⟩ => ⟨S1000x1, .f32⟩
  | .hbm, ⟨101, _⟩ => ⟨S1000x64, .f32⟩
  | .hbm, ⟨102, _⟩ => ⟨S1000x64, .f32⟩
  | .hbm, ⟨103, _⟩ => ⟨S1000x12, .f32⟩
  | .hbm, ⟨104, _⟩ => ⟨S1x12, .f32⟩
  | .hbm, ⟨105, _⟩ => ⟨S1000x12, .f32⟩
  | .hbm, ⟨106, _⟩ => ⟨S1000x12, .f32⟩
  | .local _ .vmem, ⟨0, _⟩ => ⟨S8000x4, .f32⟩
  | .local _ .vmem, ⟨1, _⟩ => ⟨S8000x4, .f32⟩
  | .local _ .vmem, ⟨2, _⟩ => ⟨S4x7, .f32⟩
  | .local _ .vmem, ⟨3, _⟩ => ⟨S7, .f32⟩
  | .local _ .vmem, ⟨4, _⟩ => ⟨S8000x7, .f32⟩
  | .local _ .vmem, ⟨5, _⟩ => ⟨S8000x7, .f32⟩
  | .local _ .vmem, ⟨6, _⟩ => ⟨S5000x7, .f32⟩
  | .local _ .vmem, ⟨7, _⟩ => ⟨S5000x7, .f32⟩
  | .local _ .vmem, ⟨8, _⟩ => ⟨S5000x7, .f32⟩
  | .local _ .vmem, ⟨9, _⟩ => ⟨S5000x7, .f32⟩
  | .local _ .vmem, ⟨10, _⟩ => ⟨S7x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S8000x4, .f32⟩
  | .local _ .vmem, ⟨17, _⟩ => ⟨S8000x4, .f32⟩
  | .local _ .vmem, ⟨18, _⟩ => ⟨S4x64, .f32⟩
  | .local _ .vmem, ⟨19, _⟩ => ⟨S64, .f32⟩
  | .local _ .vmem, ⟨20, _⟩ => ⟨S8000x64, .f32⟩
  | .local _ .vmem, ⟨21, _⟩ => ⟨S8000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v5 : Ref sig .tc := ⟨.hbm, 45, rfl⟩
abbrev main_v6 : Ref sig .tc := ⟨.hbm, 46, rfl⟩
abbrev main_call1_cst : Ref sig .tc := ⟨.hbm, 47, rfl⟩
abbrev main_call1_v0 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v13 : Ref sig .tc := ⟨.hbm, 78, rfl⟩
abbrev main_v14 : Ref sig .tc := ⟨.hbm, 79, rfl⟩
abbrev main_call3_cst : Ref sig .tc := ⟨.hbm, 80, rfl⟩
abbrev main_call3_v0 : Ref sig .tc := ⟨.hbm, 81, rfl⟩
abbrev main_v15 : Ref sig .tc := ⟨.hbm, 82, rfl⟩
abbrev main_cst_0 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_cst_1 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_cst_2 : Ref sig .tc := ⟨.hbm, 92, rfl⟩
abbrev main_v23 : Ref sig .tc := ⟨.hbm, 93, rfl⟩
abbrev main_cst_3 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_cst_4 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S8000x4_S8000x4_0_0 : ∀ a, (![0, 0] : Fin 2 → Nat) a + S8000x4.size a ≤ S8000x4.size a
  h_S8000x4 : 0 < S8000x4.numel
  bitsLt_bf16_f32 : FTy.bits .bf16 < FTy.bits .f32
  inb_S4x7_S4x7_0_0 : ∀ a, (![0, 0] : Fin 2 → Nat) a + S4x7.size a ≤ S4x7.size a
  h_S4x7 : 0 < S4x7.numel
  inb_S7_S7_0 : ∀ a, (![0] : Fin 1 → Nat) a + S7.size a ≤ S7.size a
  h_S7 : 0 < S7.numel
  shapeCasts_S7_S1x7 : S7.ShapeCasts S1x7
  broadcasts_S1x7_S8000x7 : S1x7.Broadcasts S8000x7
  inb_S8000x7_S8000x7_0_0 : ∀ a, (![0, 0] : Fin 2 → Nat) a + S8000x7.size a ≤ S8000x7.size a
  h_S8000x7 : 0 < S8000x7.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x7_0 : S1600000.BroadcastsInDim S1600000x7 (![0] : Fin 1 → Fin S1600000x7.rank)
  bcast_S_S1600000x7 : S_.BroadcastsInDim S1600000x7 (![] : Fin 0 → Fin S1600000x7.rank)
  bcast_S_S100000x7 : S_.BroadcastsInDim S100000x7 (![] : Fin 0 → Fin S100000x7.rank)
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  inb_S7x64_S7x64_0_0 : ∀ a, (![0, 0] : Fin 2 → Nat) a + S7x64.size a ≤ S7x64.size a
  h_S7x64 : 0 < S7x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S4x64_S4x64_0_0 : ∀ a, (![0, 0] : Fin 2 → Nat) a + S4x64.size a ≤ S4x64.size a
  h_S4x64 : 0 < S4x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S5000x64_S5000x64 : S5000x64.ShapeCasts S5000x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S8000x4_S4x7_S8000x7_1_0_0_1_n_n_wf : DotDims.WF S8000x4 S4x7 S8000x7 [1] [0] [0] [1] [] []
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S5000x7_S7x64_S5000x64_1_0_0_1_n_n_wf : DotDims.WF S5000x7 S7x64 S5000x64 [1] [0] [0] [1] [] []
  dot_S5000x64_S64x64_S5000x64_1_0_0_1_n_n_wf : DotDims.WF S5000x64 S64x64 S5000x64 [1] [0] [0] [1] [] []
  dot_S8000x4_S4x64_S8000x64_1_0_0_1_n_n_wf : DotDims.WF S8000x4 S4x64 S8000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000x1_S100000x1_S100000x1_1_0_0_1_wf : ScatterDims.WF S1000x1 S100000x1 S100000x1 [1] [0] [0] 1
  dot_S1000x64_S64x12_S1000x12_1_0_0_1_n_n_wf : DotDims.WF S1000x64 S64x12 S1000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S1600000x4.size a
  hwx0_0 : ∀ i : grid0.Coords, EltTy.bits .f32 = 32 ∨ (Rect.block (s := S1600000x4) S8000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x7.size a ≤ S4x7.size a
  hwx0_1 : ∀ i : grid0.Coords, EltTy.bits .f32 = 32 ∨ (Rect.block (s := S4x7) S4x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7.size a ≤ S7.size a
  hwx0_2 : ∀ i : grid0.Coords, EltTy.bits .f32 = 32 ∨ (Rect.block (s := S7) S7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x7.size a ≤ S1600000x7.size a
  hwx0_3 : ∀ i : grid0.Coords, EltTy.bits .f32 = 32 ∨ (Rect.block (s := S1600000x7) S8000x7.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x7.size a ≤ S100000x7.size a
  hwx1_0 : ∀ i : grid1.Coords, EltTy.bits .f32 = 32 ∨ (Rect.block (s := S100000x7) S5000x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x7.size a ≤ S100000x7.size a
  hwx1_1 : ∀ i : grid1.Coords, EltTy.bits .f32 = 32 ∨ (Rect.block (s := S100000x7) S5000x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7x64.size a ≤ S7x64.size a
  hwx1_2 : ∀ i : grid1.Coords, EltTy.bits .f32 = 32 ∨ (Rect.block (s := S7x64) S7x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x4.size a ≤ S1600000x4.size a
  hwx2_0 : ∀ i : grid2.Coords, EltTy.bits .f32 = 32 ∨ (Rect.block (s := S1600000x4) S8000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x64.size a ≤ S4x64.size a
  hwx2_1 : ∀ i : grid2.Coords, EltTy.bits .f32 = 32 ∨ (Rect.block (s := S4x64) S4x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S1600000x64.size a
  hwx2_3 : ∀ i : grid2.Coords, EltTy.bits .f32 = 32 ∨ (Rect.block (s := S1600000x64) S8000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def dot_S8000x4_S4x7_S8000x7_1_0_0_1_n_n : DotDims S8000x4 S4x7 S8000x7 where
  lhsContracting := [1]
  rhsContracting := [0]
  lhsNonContracting := [0]
  rhsNonContracting := [1]
  lhsBatch := []
  rhsBatch := []
  wf := dot_S8000x4_S4x7_S8000x7_1_0_0_1_n_n_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S5000x7_S7x64_S5000x64_1_0_0_1_n_n : DotDims S5000x7 S7x64 S5000x64 where
  lhsContracting := [1]
  rhsContracting := [0]
  lhsNonContracting := [0]
  rhsNonContracting := [1]
  lhsBatch := []
  rhsBatch := []
  wf := dot_S5000x7_S7x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x64_S64x12_S1000x12_1_0_0_1_n_n : DotDims S1000x64 S64x12 S1000x12 where
  lhsContracting := [1]
  rhsContracting := [0]
  lhsNonContracting := [0]
  rhsNonContracting := [1]
  lhsBatch := []
  rhsBatch := []
  wf := dot_S1000x64_S64x12_S1000x12_1_0_0_1_n_n_wf

abbrev win0_0 : Pipeline.Window sig grid0 :=
  Pipeline.Window.ofSpec (Memref.whole main_arg1) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8000x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S7x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S8000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S8000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v19) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x7 : Shape := ⟨2, ![100000, 7]⟩
abbrev S1600000x4 : Shape := ⟨2, ![1600000, 4]⟩
abbrev S4x7 : Shape := ⟨2, ![4, 7]⟩
abbrev S7 : Shape := ⟨1, ![7]⟩
abbrev S4x64 : Shape := ⟨2, ![4, 64]⟩
abbrev S64 : Shape := ⟨1, ![64]⟩
abbrev S7x64 : Shape := ⟨2, ![7, 64]⟩
abbrev S64x64 : Shape := ⟨2, ![64, 64]⟩
abbrev S64x12 : Shape := ⟨2, ![64, 12]⟩
abbrev S12 : Shape := ⟨1, ![12]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1600000x7 : Shape := ⟨2, ![1600000, 7]⟩
abbrev S1x7 : Shape := ⟨2, ![1, 7]⟩
abbrev S_ : Shape := ⟨0, ![]⟩
abbrev S1600000x1 : Shape := ⟨2, ![1600000, 1]⟩
abbrev S100000x64 : Shape := ⟨2, ![100000, 64]⟩
abbrev S1x64 : Shape := ⟨2, ![1, 64]⟩
abbrev S1600000x64 : Shape := ⟨2, ![1600000, 64]⟩
abbrev S1000x64 : Shape := ⟨2, ![1000, 64]⟩
abbrev S100000x1 : Shape := ⟨2, ![100000, 1]⟩
abbrev S1000x1 : Shape := ⟨2, ![1000, 1]⟩
abbrev S1000x12 : Shape := ⟨2, ![1000, 12]⟩
abbrev S1x12 : Shape := ⟨2, ![1, 12]⟩

abbrev nBuf : Space → Nat
  | .hbm => 117
  | .vmem => 0
  | .smem => 0
  | _ => 0

abbrev bufTy : (tb : Table) → Fin (tcTables nBuf tb) → BufTy
  | .hbm, ⟨0, _⟩ => ⟨S100000x7, .f32⟩
  | .hbm, ⟨1, _⟩ => ⟨S1600000x4, .f32⟩
  | .hbm, ⟨2, _⟩ => ⟨S4x7, .f32⟩
  | .hbm, ⟨3, _⟩ => ⟨S7, .f32⟩
  | .hbm, ⟨4, _⟩ => ⟨S4x64, .f32⟩
  | .hbm, ⟨5, _⟩ => ⟨S64, .f32⟩
  | .hbm, ⟨6, _⟩ => ⟨S7x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x12, .f32⟩
  | .hbm, ⟨15, _⟩ => ⟨S12, .f32⟩
  | .hbm, ⟨16, _⟩ => ⟨S2x1600000, .i32⟩
  | .hbm, ⟨17, _⟩ => ⟨S100000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1600000x7, .f32⟩
  | .hbm, ⟨23, _⟩ => ⟨S1x7, .f32⟩
  | .hbm, ⟨24, _⟩ => ⟨S1600000x7, .f32⟩
  | .hbm, ⟨25, _⟩ => ⟨S1600000x7, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x7, .f32⟩
  | .hbm, ⟨35, _⟩ => ⟨S1600000x7, .f32⟩
  | .hbm, ⟨36, _⟩ => ⟨S_, .f32⟩
  | .hbm, ⟨37, _⟩ => ⟨S1600000x7, .f32⟩
  | .hbm, ⟨38, _⟩ => ⟨S1600000x7, .f32⟩
  | .hbm, ⟨39, _⟩ => ⟨S_, .f32⟩
  | .hbm, ⟨40, _⟩ => ⟨S100000x7, .f32⟩
  | .hbm, ⟨41, _⟩ => ⟨S1600000x1, .i32⟩
  | .hbm, ⟨42, _⟩ => ⟨S100000x7, .f32⟩
  | .hbm, ⟨43, _⟩ => ⟨S100000x7, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S1x1600000, .i32⟩
  | .hbm, ⟨59, _⟩ => ⟨S1600000, .i32⟩
  | .hbm, ⟨60, _⟩ => ⟨S1x1600000, .i32⟩
  | .hbm, ⟨61, _⟩ => ⟨S1600000, .i32⟩
  | .hbm, ⟨62, _⟩ => ⟨S1600000x64, .f32⟩
  | .hbm, ⟨63, _⟩ => ⟨S1x64, .f32⟩
  | .hbm, ⟨64, _⟩ => ⟨S1600000x64, .f32⟩
  | .hbm, ⟨65, _⟩ => ⟨S1600000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S1600000x64, .f32⟩
  | .hbm, ⟨76, _⟩ => ⟨S_, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S1000x64, .f32⟩
  | .hbm, ⟨100, _⟩ => ⟨S100000x1, .i32⟩
  | .hbm, ⟨101, _⟩ => ⟨S1000x64, .f32⟩
  | .hbm, ⟨102, _⟩ => ⟨S_, .f32⟩
  | .hbm, ⟨103, _⟩ => ⟨S100000x1, .f32⟩
  | .hbm, ⟨104, _⟩ => ⟨S_, .f32⟩
  | .hbm, ⟨105, _⟩ => ⟨S1000x1, .f32⟩
  | .hbm, ⟨106, _⟩ => ⟨S100000x1, .i32⟩
  | .hbm, ⟨107, _⟩ => ⟨S1000x1, .f32⟩
  | .hbm, ⟨108, _⟩ => ⟨S_, .f32⟩
  | .hbm, ⟨109, _⟩ => ⟨S1000x1, .f32⟩
  | .hbm, ⟨110, _⟩ => ⟨S1000x1, .f32⟩
  | .hbm, ⟨111, _⟩ => ⟨S1000x64, .f32⟩
  | .hbm, ⟨112, _⟩ => ⟨S1000x64, .f32⟩
  | .hbm, ⟨113, _⟩ => ⟨S1000x12, .f32⟩
  | .hbm, ⟨114, _⟩ => ⟨S1x12, .f32⟩
  | .hbm, ⟨115, _⟩ => ⟨S1000x12, .f32⟩
  | .hbm, ⟨116, _⟩ => ⟨S1000x12, .f32⟩
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_cst : Ref sig .tc := ⟨.hbm, 48, rfl⟩
abbrev main_call1_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_1 : Ref sig .tc := ⟨.hbm, 66, rfl⟩
abbrev main_v39 : Ref sig .tc := ⟨.hbm, 67, rfl⟩
abbrev main_v40 : Ref sig .tc := ⟨.hbm, 68, rfl⟩
abbrev main_c_2 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call3_cst : Ref sig .tc := ⟨.hbm, 76, rfl⟩
abbrev main_call3_v0 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call4_cst : Ref sig .tc := ⟨.hbm, 88, rfl⟩
abbrev main_call4_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call5_cst : Ref sig .tc := ⟨.hbm, 95, rfl⟩
abbrev main_call5_v0 : Ref sig .tc := ⟨.hbm, 96, rfl⟩
abbrev main_v61 : Ref sig .tc := ⟨.hbm, 97, rfl⟩
abbrev main_cst_4 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_5 : Ref sig .tc := ⟨.hbm, 102, rfl⟩
abbrev main_v65 : Ref sig .tc := ⟨.hbm, 103, rfl⟩
abbrev main_cst_6 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_7 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S7_S1x7_1 : S7.BroadcastsInDim S1x7 (![1] : Fin 1 → Fin S1x7.rank)
  bcast_S1x7_S1600000x7_0_1 : S1x7.BroadcastsInDim S1600000x7 (![0, 1] : Fin 2 → Fin S1600000x7.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x7 : S_.BroadcastsInDim S1600000x7 (![] : Fin 0 → Fin S1600000x7.rank)
  bcast_S_S100000x7 : S_.BroadcastsInDim S100000x7 (![] : Fin 0 → Fin S100000x7.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S1600000x4_S4x7_S1600000x7_1_0_0_1_n_n_wf : DotDims.WF S1600000x4 S4x7 S1600000x7 [1] [0] [0] [1] [] []
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x64_S100000x64_1_0_0_1_n_n_wf : DotDims.WF S100000x7 S7x64 S100000x64 [1] [0] [0] [1] [] []
  dot_S100000x64_S64x64_S100000x64_1_0_0_1_n_n_wf : DotDims.WF S100000x64 S64x64 S100000x64 [1] [0] [0] [1] [] []
  dot_S1600000x4_S4x64_S1600000x64_1_0_0_1_n_n_wf : DotDims.WF S1600000x4 S4x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000x1_S100000x1_S100000x1_1_0_0_1_wf : ScatterDims.WF S1000x1 S100000x1 S100000x1 [1] [0] [0] 1
  dot_S1000x64_S64x12_S1000x12_1_0_0_1_n_n_wf : DotDims.WF S1000x64 S64x12 S1000x12 [1] [0] [0] [1] [] []

variable [Facts₀]

def dot_S1600000x4_S4x7_S1600000x7_1_0_0_1_n_n : DotDims S1600000x4 S4x7 S1600000x7 where
  lhsContracting := [1]
  rhsContracting := [0]
  lhsNonContracting := [0]
  rhsNonContracting := [1]
  lhsBatch := []
  rhsBatch := []
  wf := dot_S1600000x4_S4x7_S1600000x7_1_0_0_1_n_n_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x4_S4x64_S1600000x64_1_0_0_1_n_n : DotDims S1600000x4 S4x64 S1600000x64 where
  lhsContracting := [1]
  rhsContracting := [0]
  lhsNonContracting := [0]
  rhsNonContracting := [1]
  lhsBatch := []
  rhsBatch := []
  wf := dot_S1600000x4_S4x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x64_S64x12_S1000x12_1_0_0_1_n_n : DotDims S1000x64 S64x12 S1000x12 where
  lhsContracting := [1]
  rhsContracting := [0]
  lhsNonContracting := [0]
  rhsNonContracting := [1]
  lhsBatch := []
  rhsBatch := []
  wf := dot_S1000x64_S64x12_S1000x12_1_0_0_1_n_n_wf

class Facts : Prop extends Facts₀ where

variable [Facts]
-- ==== Proof.SrcRange.lean ====
import proofs.«414903_j12919261627157_3_alg».proof.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.Pre_finite_inputs.SrcRange

open Idealize.ShloMosaic Idealize.ShloMosaic.ValueIdx
open Cert.Pre_finite_inputs

variable [Cert.Pre_finite_inputs.Facts]
open Cert.Pre_finite_inputs.Facts

/-- The source row of the edge list: row 0 of the [2, 1600000] index array, as a vector. -/
def srcRow (a16 : IVec S2x1600000 32) : IVec S1600000 32 :=
  shapeCast S1600000 (extractStridedSlice S1x1600000 ![0, 0] a16 slices_S2x1600000_S1x1600000_0_0) shapeCasts_S1x1600000_S1600000

/-- The precondition's last conjunct read back: every source index is a node index, 0 ≤ src e < 100000 as signed words. -/
theorem src_in_range (a0 : FVec Ideal S100000x7 .f32) (a1 : FVec Ideal S1600000x4 .f32) (a2 : FVec Ideal S4x7 .f32) (a3 : FVec Ideal S7 .f32) (a4 : FVec Ideal S4x64 .f32) (a5 : FVec Ideal S64 .f32) (a6 : FVec Ideal S7x64 .f32) (a7 : FVec Ideal S64 .f32) (a8 : FVec Ideal S64x64 .f32) (a9 : FVec Ideal S64 .f32) (a10 : FVec Ideal S64x64 .f32) (a11 : FVec Ideal S64 .f32) (a12 : FVec Ideal S64x64 .f32) (a13 : FVec Ideal S64 .f32) (a14 : FVec Ideal S64x12 .f32) (a15 : FVec Ideal S12 .f32) (a16 : IVec S2x1600000 32) (a17 : IVec S100000 32)
    (h : fn (F := Ideal) a0 a1 a2 a3 a4 a5 a6 a7 a8 a9 a10 a11 a12 a13 a14 a15 a16 a17 = fun _ => 1#1) (e : S1600000.Idx) :
    (0#32).sle (srcRow a16 e) = true ∧ (srcRow a16 e).slt 100000#32 = true := by
  -- the scalar shape has one index
  haveI : Subsingleton S_.Idx := ⟨fun a b => funext fun d => d.elim0⟩
  -- the predicate's one entry is 1
  have h0 := congrFun h ix0
  dsimp only [fn, fn_part1, fn_part2, fn_part3, fn_part4, fn_part5] at h0
  -- its last conjunct: the conjunction over all edges of the two signed compares
  have h1 := (IntOp.andi_eq_one.1 h0).2
  have h2 := Host.reduce_andi_all _ _ reducesTo_S1600000_S_d0 h_S_ ix0 h1 e
  obtain ⟨hge, hlt⟩ := IntOp.andi_eq_one.1 h2
  -- each compare at edge `e`, against the broadcast constant: 0 ≤ src e and src e < 100000 as signed words
  have hge' : IntOp.cmpi .sge (srcRow a16 e) 0#32 = 1#1 := hge
  have hlt' : IntOp.cmpi .slt (srcRow a16 e) 100000#32 = 1#1 := hlt
  exact ⟨(StableHlo.Predicate.ofBool_eq_one_iff _).1 hge', (StableHlo.Predicate.ofBool_eq_one_iff _).1 hlt'⟩

end Cert.Pre_finite_inputs.SrcRange

end
-- ==== Proof.Spec.lean ====
/-
  The mathematics both programs compute, index by index, on the extended reals.

  A GINE layer of width d over a graph of 100000 nodes and 1600000 edges: the per-edge linear map
  e[i, j] = sum_k ea[i, k] * W[k, j] + b[j]; the message relu (x[src i] + e[i]); its sum into the destination
  node; and the per-node map out[r, j] = relu (sum_k relu (sum_l (x[r, l] + agg[r, l]) * Wa[l, k] + ba[k]) * Wb[k, j] + bb[j]).
  The gather, the scatter-add and the pooling tail are the same host operations in both programs, so only the two dense
  maps are stated here entry by entry.
-/
import Idealize.ShloMosaic.PureOps.Ideal
import Idealize.ShloMosaic.Lib.ValueIdx

noncomputable section

open scoped BigOperators

namespace Cert.Gine

open Idealize.ShloMosaic Idealize.ShloMosaic.ValueIdx

/-- Entry (r, j) of the per-edge linear map: row r of the edge attributes against column j of the weights, plus the bias. -/
def edgeLinAt {D : Nat} (ea : FVec Ideal ⟨2, ![1600000, 4]⟩ .f32) (W : FVec Ideal ⟨2, ![4, D]⟩ .f32)
    (b : FVec Ideal ⟨1, ![D]⟩ .f32) (r : Fin 1600000) (j : Fin D) : EReal :=
  (∑ k : Fin 4, ea (ix2 r k) * W (ix2 k j)) + b (ix1 j)

/-- The per-edge linear map as a whole array. -/
def edgeLin {D : Nat} (ea : FVec Ideal ⟨2, ![1600000, 4]⟩ .f32) (W : FVec Ideal ⟨2, ![4, D]⟩ .f32)
    (b : FVec Ideal ⟨1, ![D]⟩ .f32) : FVec Ideal ⟨2, ![1600000, D]⟩ .f32 :=
  fun i => edgeLinAt ea W b (i 0) (i 1)

/-- Entry (r, j) of the per-node map: two dense layers over x + agg, a relu after each. -/
def mlpAt {Din : Nat} (x agg : FVec Ideal ⟨2, ![100000, Din]⟩ .f32) (Wa : FVec Ideal ⟨2, ![Din, 64]⟩ .f32)
    (ba : FVec Ideal ⟨1, ![64]⟩ .f32) (Wb : FVec Ideal ⟨2, ![64, 64]⟩ .f32) (bb : FVec Ideal ⟨1, ![64]⟩ .f32)
    (r : Fin 100000) (j : Fin 64) : EReal :=
  max ((∑ k : Fin 64, max ((∑ l : Fin Din, (x (ix2 r l) + agg (ix2 r l)) * Wa (ix2 l k)) + ba (ix1 k)) 0 * Wb (ix2 k j))
    + bb (ix1 j)) 0

/-- The per-node map as a whole array. -/
def mlp {Din : Nat} (x agg : FVec Ideal ⟨2, ![100000, Din]⟩ .f32) (Wa : FVec Ideal ⟨2, ![Din, 64]⟩ .f32)
    (ba : FVec Ideal ⟨1, ![64]⟩ .f32) (Wb : FVec Ideal ⟨2, ![64, 64]⟩ .f32) (bb : FVec Ideal ⟨1, ![64]⟩ .f32) :
    FVec Ideal ⟨2, ![100000, 64]⟩ .f32 :=
  fun i => mlpAt x agg Wa ba Wb bb (i 0) (i 1)

end Cert.Gine

end
-- ==== Proof.TakeRows.lean ====
import proofs.«414903_j12919261627157_3_alg».proof.KernelIdeal
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.KernelIdeal.TakeRows

open Idealize.ShloMosaic Idealize.ShloMosaic.ValueIdx
open Cert.KernelIdeal

variable [Cert.KernelIdeal.Facts]
open Cert.KernelIdeal.Facts₀ Cert.KernelIdeal.Facts

/-- The row gather's start indices: the source row with negative entries wrapped by the table's length 100000, as a column. -/
def starts (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The gather's guard: entry e says whether the wrapped index of edge e lies in 0 .. 99999. -/
def inBounds (s : IVec S1600000 32) : IVec S1600000 1 :=
  Host.reduce IntOp.andi
    (andi (cmpi .sge (starts s) (broadcastInDim S1600000x1 ![] bcast_S_S1600000x1 (constantI S_ 32 0#32)))
      (cmpi .sle (starts s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-! ## Words

A source index v with 0 ≤ v (read signed) is not wrapped; if moreover v < 100000 then both range tests hold. -/

/-- A nonnegative index is left as it is by the wrap of negative entries. -/
theorem wrap_eq (v : BitVec 32) (h0 : (0#32).sle v = true) :
    Scalar.select (IntOp.cmpi .slt v 0#32) (IntOp.addi v 100000#32) v = v := by
  have h0' : (0#32).toInt ≤ v.toInt := BitVec.sle_iff_toInt_le.1 h0
  have hc : IntOp.cmpi .slt v 0#32 = 0#1 :=
    eq_zero_of_ne_one fun h => absurd (IntOp.cmpi_slt.1 h) (Int.not_lt.2 h0')
  rw [hc, select_zero]

/-- For an index in 0 .. 99999 the conjunction of the two range tests is true. -/
theorem range_one (v : BitVec 32) (h0 : (0#32).sle v = true) (h1 : v.slt 100000#32 = true) :
    IntOp.andi (IntOp.cmpi .sge v 0#32) (IntOp.cmpi .sle v 99999#32) = 1#1 := by
  refine IntOp.andi_eq_one.2 ⟨IntOp.cmpi_sge.2 (BitVec.sle_iff_toInt_le.1 h0), IntOp.cmpi_sle.2 ?_⟩
  have h1' : v.toInt < (100000#32).toInt := BitVec.slt_iff_toInt_lt.1 h1
  have e1 : (100000#32).toInt = 100000 := by decide
  have e2 : (99999#32).toInt = 99999 := by decide
  omega

/-- A left fold by and over words that are all 1 returns its start. -/
theorem foldl_andi_ones {ι : Type} (f : ι → BitVec 1) (hf : ∀ n, f n = 1#1) :
    ∀ (l : List ι) (init : BitVec 1), l.foldl (fun r n => IntOp.andi r (f n)) init = init
  | [], _ => rfl
  | a :: l, init => by
    rw [List.foldl_cons, foldl_andi_ones f hf l, hf a]
    revert init; decide

/-! ## The start indices and the guard, entry by entry -/

/-- Every entry of the start column is an entry of the source row (no entry is wrapped). -/
theorem starts_eq (s : IVec S1600000 32)
    (hs : ∀ e : S1600000.Idx, (0#32).sle (s e) = true ∧ (s e).slt 100000#32 = true) (i : S1600000x1.Idx) :
    ∃ e : S1600000.Idx, starts s i = s e := by
  obtain ⟨e, he⟩ : ∃ e : S1600000.Idx,
      starts s i = Scalar.select (IntOp.cmpi .slt (s e) 0#32) (IntOp.addi (s e) 100000#32) (s e) := ⟨_, rfl⟩
  exact ⟨e, he.trans (wrap_eq _ (hs e).1)⟩

/-- The two range tests hold at every entry of the start column. -/
theorem guard_one (s : IVec S1600000 32)
    (hs : ∀ e : S1600000.Idx, (0#32).sle (s e) = true ∧ (s e).slt 100000#32 = true) (i : S1600000x1.Idx) :
    (andi (cmpi .sge (starts s) (broadcastInDim S1600000x1 ![] bcast_S_S1600000x1 (constantI S_ 32 0#32)))
      (cmpi .sle (starts s) (broadcastInDim S1600000x1 ![0, 1] bcast_S1x1_S1600000x1_0_1
        (broadcastInDim S1x1 ![1] bcast_S1_S1x1_1 (constantI S1 32 99999#32))))) i = 1#1 := by
  obtain ⟨e, he⟩ := starts_eq s hs i
  show IntOp.andi (IntOp.cmpi .sge (starts s i) 0#32) (IntOp.cmpi .sle (starts s i) 99999#32) = 1#1
  rw [he]
  exact range_one _ (hs e).1 (hs e).2

/-- When every source index is a node index, the guard is true at every edge. -/
theorem inBounds_eq_ones (s : IVec S1600000 32)
    (hs : ∀ e : S1600000.Idx, (0#32).sle (s e) = true ∧ (s e).slt 100000#32 = true) :
    inBounds s = fun _ => 1#1 := by
  funext j
  unfold inBounds
  rw [Host.reduce_eq_foldl]
  exact (foldl_andi_ones _ (guard_one s hs) _ _).trans rfl

/-- Width 7: with every source index a node index the guarded gather (out-of-range rows replaced by a fill value)
    is the plain gather. -/
theorem take7 (x : FVec Ideal S100000x7 .f32) (s : IVec S1600000 32)
    (hs : ∀ e : S1600000.Idx, (0#32).sle (s e) = true ∧ (s e).slt 100000#32 = true) :
    select (broadcastInDim S1600000x7 ![0] bcast_S1600000_S1600000x7_0 (inBounds s))
        (Host.gather gather_S100000x7_S1600000x1_S1600000x7_1_0_n_n_0_1_17 x (starts s))
        (broadcastInDim S1600000x7 ![] bcast_S_S1600000x7 (constant S_ .f32 0x7FC00000#32))
      = Host.gather gather_S100000x7_S1600000x1_S1600000x7_1_0_n_n_0_1_17 x (starts s) := by
  rw [inBounds_eq_ones s hs]
  funext i
  exact select_one _ _

/-- Width 64. -/
theorem take64 (x : FVec Ideal S100000x64 .f32) (s : IVec S1600000 32)
    (hs : ∀ e : S1600000.Idx, (0#32).sle (s e) = true ∧ (s e).slt 100000#32 = true) :
    select (broadcastInDim S1600000x64 ![0] bcast_S1600000_S1600000x64_0 (inBounds s))
        (Host.gather gather_S100000x64_S1600000x1_S1600000x64_1_0_n_n_0_1_164 x (starts s))
        (broadcastInDim S1600000x64 ![] bcast_S_S1600000x64 (constant S_ .f32 0x7FC00000#32))
      = Host.gather gather_S100000x64_S1600000x1_S1600000x64_1_0_n_n_0_1_164 x (starts s) := by
  rw [inBounds_eq_ones s hs]
  funext i
  exact select_one _ _

end Cert.KernelIdeal.TakeRows

end
-- ==== Proof.EdgeLinKernel.lean ====
import proofs.«414903_j12919261627157_3_alg».proof.Defs
import proofs.«414903_j12919261627157_3_alg».proof.Proof.Gen.KernelIdeal.Frame
import proofs.«414903_j12919261627157_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeLin

open Idealize.ShloMosaic Idealize.ShloMosaic.TcCoe Idealize.SL.Sem Idealize.ShloMosaic.ValueIdx
open Cert.KernelIdeal Cert.KernelIdeal.Gen

/-- The zero offsets of a whole-buffer access, as constant functions. -/
theorem zeroOff2 : (![0, 0] : Fin 2 → Nat) = fun _ => 0 := funext fun a => by fin_cases a <;> rfl
theorem zeroOff1 : (![0] : Fin 1 → Nat) = fun _ => 0 := funext fun a => by fin_cases a; rfl

/-! ## Region 0: the body's payload at an index -/

/-- The left operand of the region-0 product at output index `i` and contraction index `q`: row `i 0`, -/
theorem lhs_k0_0 (i : S8000x7.Idx) (q : dot_S8000x4_S4x7_S8000x7_1_0_0_1_n_n.contr.Idx) :
    (dot_S8000x4_S4x7_S8000x7_1_0_0_1_n_n.lhsIdx i q 0).val = (i 0).val := by
  unfold DotDims.lhsIdx
  rw [dif_neg (show ¬(0 : Fin S8000x4.rank) ∈ dot_S8000x4_S4x7_S8000x7_1_0_0_1_n_n.lhsBatch by decide), dif_pos (show (0 : Fin S8000x4.rank) ∈ dot_S8000x4_S4x7_S8000x7_1_0_0_1_n_n.lhsNonContracting by decide)]
  rfl
/-- column `q`. -/
theorem lhs_k0_1 (i : S8000x7.Idx) (q : dot_S8000x4_S4x7_S8000x7_1_0_0_1_n_n.contr.Idx) :
    (dot_S8000x4_S4x7_S8000x7_1_0_0_1_n_n.lhsIdx i q 1).val = (q ⟨0, by decide⟩).val :=
  dot_S8000x4_S4x7_S8000x7_1_0_0_1_n_n.lhsIdx_val_of_single rfl i q
/-- The right operand there: row `q`, -/
theorem rhs_k0_0 (i : S8000x7.Idx) (q : dot_S8000x4_S4x7_S8000x7_1_0_0_1_n_n.contr.Idx) :
    (dot_S8000x4_S4x7_S8000x7_1_0_0_1_n_n.rhsIdx i q 0).val = (q ⟨0, by decide⟩).val :=
  dot_S8000x4_S4x7_S8000x7_1_0_0_1_n_n.rhsIdx_val_of_single rfl i q
/-- column `i 1`. -/
theorem rhs_k0_1 (i : S8000x7.Idx) (q : dot_S8000x4_S4x7_S8000x7_1_0_0_1_n_n.contr.Idx) :
    (dot_S8000x4_S4x7_S8000x7_1_0_0_1_n_n.rhsIdx i q 1).val = (i 1).val := by
  unfold DotDims.rhsIdx
  rw [dif_neg (show ¬(1 : Fin S4x7.rank) ∈ dot_S8000x4_S4x7_S8000x7_1_0_0_1_n_n.rhsBatch by decide), dif_pos (show (1 : Fin S4x7.rank) ∈ dot_S8000x4_S4x7_S8000x7_1_0_0_1_n_n.rhsNonContracting by decide)]
  rfl

/-- The product into the zero accumulator, at entry (p, q): the sum over the four shared coordinates of row `p` of the
    left operand against column `q` of the right. -/
theorem product0_at (a : FVec Ideal S8000x4 .bf16) (b : FVec Ideal S4x7 .bf16) (p : Fin 8000) (q : Fin 7) :
    matmul dot_S8000x4_S4x7_S8000x7_1_0_0_1_n_n none a b (constant (F := Ideal) S8000x7 .f32 0x00000000#32) (ix2 p q)
      = ∑ k : Fin 4, a (ix2 p k) * b (ix2 k q) := by
  simp only [matmul]
  rw [Ideal.matmul_constant_zero_apply, ← Equiv.sum_comp (contrEquiv1 dot_S8000x4_S4x7_S8000x7_1_0_0_1_n_n 4 rfl rfl).symm]
  refine Finset.sum_congr rfl fun k _ => ?_
  have hk := contrEquiv1_symm_val dot_S8000x4_S4x7_S8000x7_1_0_0_1_n_n 4 rfl rfl k
  have el : dot_S8000x4_S4x7_S8000x7_1_0_0_1_n_n.lhsIdx (ix2 p q) ((contrEquiv1 dot_S8000x4_S4x7_S8000x7_1_0_0_1_n_n 4 rfl rfl).symm k) = ix2 p k := funext fun a => Fin.ext (by
    match a with
    | ⟨0, _⟩ => exact lhs_k0_0 _ _
    | ⟨1, _⟩ => exact (lhs_k0_1 _ _).trans hk)
  have er : dot_S8000x4_S4x7_S8000x7_1_0_0_1_n_n.rhsIdx (ix2 p q) ((contrEquiv1 dot_S8000x4_S4x7_S8000x7_1_0_0_1_n_n 4 rfl rfl).symm k) = ix2 k q := funext fun a => Fin.ext (by
    match a with
    | ⟨0, _⟩ => exact (rhs_k0_0 _ _).trans hk
    | ⟨1, _⟩ => exact rhs_k0_1 _ _)
  rw [el, er]

/-- THE PAYLOAD AT AN ENTRY: the rounding to the narrow format is the identity on the extended reals, the product
    accumulates into zero, and the bias, cast to one row and broadcast down the rows, adds its entry `q`. -/
theorem payload0_at (x0 : Vec Ideal S8000x4 .f32) (x1 : Vec Ideal S4x7 .f32) (x2 : Vec Ideal S7 .f32) (p : Fin 8000) (q : Fin 7) :
    k0_pay1 (F := Ideal) x0 x1 x2 (ix2 p q) = (∑ k : Fin 4, x0 (ix2 p k) * x1 (ix2 k q)) + x2 (ix1 q) := by
  unfold k0_pay1
  rw [addf_apply, product0_at, broadcastTo_1b_ab_apply, shapeCast_a_1a_apply]
  simp only [truncf_apply]

/-! ## Region 2: the body's payload at an index -/

/-- The left operand of the region-2 product at output index `i` and contraction index `q`: row `i 0`, -/
theorem lhs_k2_0 (i : S8000x64.Idx) (q : dot_S8000x4_S4x64_S8000x64_1_0_0_1_n_n.contr.Idx) :
    (dot_S8000x4_S4x64_S8000x64_1_0_0_1_n_n.lhsIdx i q 0).val = (i 0).val := by
  unfold DotDims.lhsIdx
  rw [dif_neg (show ¬(0 : Fin S8000x4.rank) ∈ dot_S8000x4_S4x64_S8000x64_1_0_0_1_n_n.lhsBatch by decide), dif_pos (show (0 : Fin S8000x4.rank) ∈ dot_S8000x4_S4x64_S8000x64_1_0_0_1_n_n.lhsNonContracting by decide)]
  rfl
/-- column `q`. -/
theorem lhs_k2_1 (i : S8000x64.Idx) (q : dot_S8000x4_S4x64_S8000x64_1_0_0_1_n_n.contr.Idx) :
    (dot_S8000x4_S4x64_S8000x64_1_0_0_1_n_n.lhsIdx i q 1).val = (q ⟨0, by decide⟩).val :=
  dot_S8000x4_S4x64_S8000x64_1_0_0_1_n_n.lhsIdx_val_of_single rfl i q
/-- The right operand there: row `q`, -/
theorem rhs_k2_0 (i : S8000x64.Idx) (q : dot_S8000x4_S4x64_S8000x64_1_0_0_1_n_n.contr.Idx) :
    (dot_S8000x4_S4x64_S8000x64_1_0_0_1_n_n.rhsIdx i q 0).val = (q ⟨0, by decide⟩).val :=
  dot_S8000x4_S4x64_S8000x64_1_0_0_1_n_n.rhsIdx_val_of_single rfl i q
/-- column `i 1`. -/
theorem rhs_k2_1 (i : S8000x64.Idx) (q : dot_S8000x4_S4x64_S8000x64_1_0_0_1_n_n.contr.Idx) :
    (dot_S8000x4_S4x64_S8000x64_1_0_0_1_n_n.rhsIdx i q 1).val = (i 1).val := by
  unfold DotDims.rhsIdx
  rw [dif_neg (show ¬(1 : Fin S4x64.rank) ∈ dot_S8000x4_S4x64_S8000x64_1_0_0_1_n_n.rhsBatch by decide), dif_pos (show (1 : Fin S4x64.rank) ∈ dot_S8000x4_S4x64_S8000x64_1_0_0_1_n_n.rhsNonContracting by decide)]
  rfl

/-- The product into the zero accumulator, at entry (p, q): the sum over the four shared coordinates of row `p` of the
    left operand against column `q` of the right. -/
theorem product2_at (a : FVec Ideal S8000x4 .bf16) (b : FVec Ideal S4x64 .bf16) (p : Fin 8000) (q : Fin 64) :
    matmul dot_S8000x4_S4x64_S8000x64_1_0_0_1_n_n none a b (constant (F := Ideal) S8000x64 .f32 0x00000000#32) (ix2 p q)
      = ∑ k : Fin 4, a (ix2 p k) * b (ix2 k q) := by
  simp only [matmul]
  rw [Ideal.matmul_constant_zero_apply, ← Equiv.sum_comp (contrEquiv1 dot_S8000x4_S4x64_S8000x64_1_0_0_1_n_n 4 rfl rfl).symm]
  refine Finset.sum_congr rfl fun k _ => ?_
  have hk := contrEquiv1_symm_val dot_S8000x4_S4x64_S8000x64_1_0_0_1_n_n 4 rfl rfl k
  have el : dot_S8000x4_S4x64_S8000x64_1_0_0_1_n_n.lhsIdx (ix2 p q) ((contrEquiv1 dot_S8000x4_S4x64_S8000x64_1_0_0_1_n_n 4 rfl rfl).symm k) = ix2 p k := funext fun a => Fin.ext (by
    match a with
    | ⟨0, _⟩ => exact lhs_k2_0 _ _
    | ⟨1, _⟩ => exact (lhs_k2_1 _ _).trans hk)
  have er : dot_S8000x4_S4x64_S8000x64_1_0_0_1_n_n.rhsIdx (ix2 p q) ((contrEquiv1 dot_S8000x4_S4x64_S8000x64_1_0_0_1_n_n 4 rfl rfl).symm k) = ix2 k q := funext fun a => Fin.ext (by
    match a with
    | ⟨0, _⟩ => exact (rhs_k2_0 _ _).trans hk
    | ⟨1, _⟩ => exact rhs_k2_1 _ _)
  rw [el, er]

/-- THE PAYLOAD AT AN ENTRY: the rounding to the narrow format is the identity on the extended reals, the product
    accumulates into zero, and the bias, cast to one row and broadcast down the rows, adds its entry `q`. -/
theorem payload2_at (x0 : Vec Ideal S8000x4 .f32) (x1 : Vec Ideal S4x64 .f32) (x2 : Vec Ideal S64 .f32) (p : Fin 8000) (q : Fin 64) :
    k2_pay1 (F := Ideal) x0 x1 x2 (ix2 p q) = (∑ k : Fin 4, x0 (ix2 p k) * x1 (ix2 k q)) + x2 (ix1 q) := by
  unfold k2_pay1
  rw [addf_apply, product2_at, broadcastTo_1b_ab_apply, shapeCast_a_1a_apply]
  simp only [truncf_apply]

variable (V : (c : Dev nD) → (b : Ref sig .tc) → Buf (Elt Ideal) ((c : Thread nD τ).loc b))

/-! ## Region 0: from the blocks to the array -/

/-- The block index maps, decided once over the grid's 200 points: the edge rows and the output move one block of 8000
    rows per point; the weights and the bias are one block each. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, k) of the edge-attribute block at point `t` is entry (8000 t + p, k) of the array. -/
theorem rowsBlock0 (c : Dev nD) (t : Fin cfg0.N) (p : Fin 8000) (k : Fin 4) (r : Fin 1600000) (hr : r.val = t.val * 8000 + p.val) :
    (iblk0 V c 0 t : Vec Ideal S8000x4 .f32) (ix2 p k) = (V c main_arg1 : S1600000x4.Idx → EReal) (ix2 r k) := by
  obtain ⟨e0, e1, e2, e3, e4, e5, e6⟩ := blockIdx0 t
  show V c main_arg1 (((cfg0.win 0).blk t).view.emb (ix2 p k)) = V c main_arg1 (ix2 r k)
  refine congrArg _ (funext fun a => Fin.ext ?_)
  match a with
  | ⟨0, _⟩ => show win0_0.index t (0 : Fin 2) * 8000 + 1 * p.val = r.val; omega
  | ⟨1, _⟩ => show win0_0.index t (1 : Fin 2) * 4 + 1 * k.val = k.val; omega

/-- The weight block at every point is the weight array. -/
theorem weightsBlock0 (c : Dev nD) (t : Fin cfg0.N) (k : Fin 4) (q : Fin 7) :
    (iblk0 V c 1 t : Vec Ideal S4x7 .f32) (ix2 k q) = (V c main_arg2 : S4x7.Idx → EReal) (ix2 k q) := by
  obtain ⟨e0, e1, e2, e3, e4, e5, e6⟩ := blockIdx0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 4 + 1 * k.val = k.val; omega
  | ⟨1, _⟩ => show win0_1.index t (1 : Fin 2) * 7 + 1 * q.val = q.val; omega

/-- The bias block at every point is the bias array. -/
theorem biasBlock0 (c : Dev nD) (t : Fin cfg0.N) (q : Fin 7) :
    (iblk0 V c 2 t : Vec Ideal S7 .f32) (ix1 q) = (V c main_arg3 : S7.Idx → EReal) (ix1 q) := by
  obtain ⟨e0, e1, e2, e3, e4, e5, e6⟩ := blockIdx0 t
  show V c main_arg3 (((cfg0.win 2).blk t).view.emb (ix1 q)) = V c main_arg3 (ix1 q)
  refine congrArg _ (funext fun a => Fin.ext ?_)
  match a with
  | ⟨0, _⟩ => show win0_2.index t (0 : Fin 1) * 7 + 1 * q.val = q.val; omega

/-- Entry (p, q) of the output block at point `t` sits at entry (8000 t + p, q) of the output array. -/
theorem outEntry0 (t : Fin cfg0.N) (p : Fin 8000) (q : Fin 7) (r : Fin 1600000) (hr : r.val = t.val * 8000 + p.val) :
    ((cfg0.win 3).blk t).view.emb (ix2 p q) = (ix2 r q : S1600000x7.Idx) := by
  obtain ⟨e0, e1, e2, e3, e4, e5, e6⟩ := blockIdx0 t
  funext a; apply Fin.ext
  match a with
  | ⟨0, _⟩ => show win0_3.index t (0 : Fin 2) * 8000 + 1 * p.val = r.val; omega
  | ⟨1, _⟩ => show win0_3.index t (1 : Fin 2) * 7 + 1 * q.val = q.val; omega

/-- WHAT POINT `t` WRITES BACK is block `t` of the per-edge linear map of the three arrays as the region finds them. -/
theorem writeBack0 (c : Dev nD) (t : Fin cfg0.N) :
    (dat0 (F := Ideal) V c).flushed 3 t = ((cfg0.win 3).blk t).view.read (Elt Ideal) (Cert.Gine.edgeLin (V c main_arg1) (V c main_arg2) (V c main_arg3)) := by
  show (cfg0.win 3).cut (grid0.coords t) ((dat0 V c).after 3 t) = _
  rw [after0_3]
  unfold out0_3
  rw [View.canon_unit_zero zeroOff2]
  simp only [View.ld_unit_zero (S := S8000x4) zeroOff2, View.ld_unit_zero (S := S4x7) zeroOff2, View.ld_unit_zero (S := S7) zeroOff1]
  refine funext fun (j : S8000x7.Idx) => ?_
  obtain ⟨p, q, rfl⟩ : ∃ (p : Fin 8000) (q : Fin 7), j = ix2 p q := ⟨j 0, j 1, eq_ix2 j⟩
  obtain ⟨r, hr⟩ : ∃ r : Fin 1600000, r.val = t.val * 8000 + p.val :=
    ⟨⟨t.val * 8000 + p.val, by have ht : t.val < 200 := lt_of_lt_of_eq t.isLt N_0; have := p.isLt; omega⟩, rfl⟩
  show k0_pay1 (F := Ideal) (iblk0 V c 0 t) (iblk0 V c 1 t) (iblk0 V c 2 t) (ix2 p q)
    = Cert.Gine.edgeLin (V c main_arg1) (V c main_arg2) (V c main_arg3) (((cfg0.win 3).blk t).view.emb (ix2 p q))
  rw [payload0_at, outEntry0 t p q r hr, biasBlock0 V c t q]
  simp only [rowsBlock0 V c t p _ r hr, weightsBlock0 V c t]
  rfl

/-- An index of the output array is in point `t`'s block iff each coordinate is in the block's range on its axis. -/
theorem inBlock0 (t : Fin cfg0.N) (i : S1600000x7.Idx) :
    i ∈ ((cfg0.win 3).blk t).view.set ↔ ∀ a : Fin 2, win0_3.index t a * S8000x7.size a ≤ (i a).val ∧ (i a).val < win0_3.index t a * S8000x7.size a + S8000x7.size a := by
  show i ∈ ((View.whole main_v4).slice (win0_3.rect t)).set ↔ _
  rw [View.set_slice_whole, Rect.mem_set_unit]
  exact Iff.rfl

/-- Every entry of the output array is written: row `i` by the point `i / 8000`. -/
theorem rowsCovered0 (i : S1600000x7.Idx) :
    ∃ t : Fin cfg0.N, (cfg0.win 3).flush t = true ∧ i ∈ ((cfg0.win 3).blk t).view.set := by
  have hi0 : (i 0).val < 1600000 := (i 0).isLt
  have hi1 : (i 1).val < 7 := (i 1).isLt
  obtain ⟨t, ht⟩ : ∃ t : Fin cfg0.N, t.val = (i 0).val / 8000 :=
    ⟨⟨(i 0).val / 8000, lt_of_lt_of_eq (by omega : (i 0).val / 8000 < 200) N_0.symm⟩, rfl⟩
  obtain ⟨e0, e1, e2, e3, e4, e5, e6⟩ := blockIdx0 t
  refine ⟨t, flush0_3 t, ?_⟩
  rw [inBlock0]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 7 ≤ (i 1).val ∧ (i 1).val < win0_3.index t (1 : Fin 2) * 7 + 7; omega

/-- Region 0 (the width-7 edge-linear call): after its 200 points the output array is the per-edge linear map of
    the three operand arrays as the region found them: every point writes back its block of that map, and the blocks
    cover the array. -/
theorem final0 (c : Dev nD) :
    (dat0 (F := Ideal) V c).arrAt 3 cfg0.N = Cert.Gine.edgeLin (V c main_arg1) (V c main_arg2) (V c main_arg3) :=
  (dat0 (F := Ideal) V c).arrAt_eq_of_cover 3 _ (fun t _ => writeBack0 V c t) rowsCovered0

/-! ## Region 2: from the blocks to the array -/

/-- The block index maps, decided once over the grid's 200 points: the edge rows and the output move one block of 8000
    rows per point; the weights and the bias are one block each. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry (p, k) of the edge-attribute block at point `t` is entry (8000 t + p, k) of the array. -/
theorem rowsBlock2 (c : Dev nD) (t : Fin cfg2.N) (p : Fin 8000) (k : Fin 4) (r : Fin 1600000) (hr : r.val = t.val * 8000 + p.val) :
    (iblk2 V c 0 t : Vec Ideal S8000x4 .f32) (ix2 p k) = (V c main_arg1 : S1600000x4.Idx → EReal) (ix2 r k) := by
  obtain ⟨e0, e1, e2, e3, e4, e5, e6⟩ := blockIdx2 t
  show V c main_arg1 (((cfg2.win 0).blk t).view.emb (ix2 p k)) = V c main_arg1 (ix2 r k)
  refine congrArg _ (funext fun a => Fin.ext ?_)
  match a with
  | ⟨0, _⟩ => show win2_0.index t (0 : Fin 2) * 8000 + 1 * p.val = r.val; omega
  | ⟨1, _⟩ => show win2_0.index t (1 : Fin 2) * 4 + 1 * k.val = k.val; omega

/-- The weight block at every point is the weight array. -/
theorem weightsBlock2 (c : Dev nD) (t : Fin cfg2.N) (k : Fin 4) (q : Fin 64) :
    (iblk2 V c 1 t : Vec Ideal S4x64 .f32) (ix2 k q) = (V c main_arg4 : S4x64.Idx → EReal) (ix2 k q) := by
  obtain ⟨e0, e1, e2, e3, e4, e5, e6⟩ := blockIdx2 t
  show V c main_arg4 (((cfg2.win 1).blk t).view.emb (ix2 k q)) = V c main_arg4 (ix2 k q)
  refine congrArg _ (funext fun a => Fin.ext ?_)
  match a with
  | ⟨0, _⟩ => show win2_1.index t (0 : Fin 2) * 4 + 1 * k.val = k.val; omega
  | ⟨1, _⟩ => show win2_1.index t (1 : Fin 2) * 64 + 1 * q.val = q.val; omega

/-- The bias block at every point is the bias array. -/
theorem biasBlock2 (c : Dev nD) (t : Fin cfg2.N) (q : Fin 64) :
    (iblk2 V c 2 t : Vec Ideal S64 .f32) (ix1 q) = (V c main_arg5 : S64.Idx → EReal) (ix1 q) := by
  obtain ⟨e0, e1, e2, e3, e4, e5, e6⟩ := blockIdx2 t
  show V c main_arg5 (((cfg2.win 2).blk t).view.emb (ix1 q)) = V c main_arg5 (ix1 q)
  refine congrArg _ (funext fun a => Fin.ext ?_)
  match a with
  | ⟨0, _⟩ => show win2_2.index t (0 : Fin 1) * 64 + 1 * q.val = q.val; omega

/-- Entry (p, q) of the output block at point `t` sits at entry (8000 t + p, q) of the output array. -/
theorem outEntry2 (t : Fin cfg2.N) (p : Fin 8000) (q : Fin 64) (r : Fin 1600000) (hr : r.val = t.val * 8000 + p.val) :
    ((cfg2.win 3).blk t).view.emb (ix2 p q) = (ix2 r q : S1600000x64.Idx) := by
  obtain ⟨e0, e1, e2, e3, e4, e5, e6⟩ := blockIdx2 t
  funext a; apply Fin.ext
  match a with
  | ⟨0, _⟩ => show win2_3.index t (0 : Fin 2) * 8000 + 1 * p.val = r.val; omega
  | ⟨1, _⟩ => show win2_3.index t (1 : Fin 2) * 64 + 1 * q.val = q.val; omega

/-- WHAT POINT `t` WRITES BACK is block `t` of the per-edge linear map of the three arrays as the region finds them. -/
theorem writeBack2 (c : Dev nD) (t : Fin cfg2.N) :
    (dat2 (F := Ideal) V c).flushed 3 t = ((cfg2.win 3).blk t).view.read (Elt Ideal) (Cert.Gine.edgeLin (V c main_arg1) (V c main_arg4) (V c main_arg5)) := by
  show (cfg2.win 3).cut (grid2.coords t) ((dat2 V c).after 3 t) = _
  rw [after2_3]
  unfold out2_3
  rw [View.canon_unit_zero zeroOff2]
  simp only [View.ld_unit_zero (S := S8000x4) zeroOff2, View.ld_unit_zero (S := S4x64) zeroOff2, View.ld_unit_zero (S := S64) zeroOff1]
  refine funext fun (j : S8000x64.Idx) => ?_
  obtain ⟨p, q, rfl⟩ : ∃ (p : Fin 8000) (q : Fin 64), j = ix2 p q := ⟨j 0, j 1, eq_ix2 j⟩
  obtain ⟨r, hr⟩ : ∃ r : Fin 1600000, r.val = t.val * 8000 + p.val :=
    ⟨⟨t.val * 8000 + p.val, by have ht : t.val < 200 := lt_of_lt_of_eq t.isLt N_2; have := p.isLt; omega⟩, rfl⟩
  show k2_pay1 (F := Ideal) (iblk2 V c 0 t) (iblk2 V c 1 t) (iblk2 V c 2 t) (ix2 p q)
    = Cert.Gine.edgeLin (V c main_arg1) (V c main_arg4) (V c main_arg5) (((cfg2.win 3).blk t).view.emb (ix2 p q))
  rw [payload2_at, outEntry2 t p q r hr, biasBlock2 V c t q]
  simp only [rowsBlock2 V c t p _ r hr, weightsBlock2 V c t]
  rfl

/-- An index of the output array is in point `t`'s block iff each coordinate is in the block's range on its axis. -/
theorem inBlock2 (t : Fin cfg2.N) (i : S1600000x64.Idx) :
    i ∈ ((cfg2.win 3).blk t).view.set ↔ ∀ a : Fin 2, win2_3.index t a * S8000x64.size a ≤ (i a).val ∧ (i a).val < win2_3.index t a * S8000x64.size a + S8000x64.size a := by
  show i ∈ ((View.whole main_v12).slice (win2_3.rect t)).set ↔ _
  rw [View.set_slice_whole, Rect.mem_set_unit]
  exact Iff.rfl

/-- Every entry of the output array is written: row `i` by the point `i / 8000`. -/
theorem rowsCovered2 (i : S1600000x64.Idx) :
    ∃ t : Fin cfg2.N, (cfg2.win 3).flush t = true ∧ i ∈ ((cfg2.win 3).blk t).view.set := by
  have hi0 : (i 0).val < 1600000 := (i 0).isLt
  have hi1 : (i 1).val < 64 := (i 1).isLt
  obtain ⟨t, ht⟩ : ∃ t : Fin cfg2.N, t.val = (i 0).val / 8000 :=
    ⟨⟨(i 0).val / 8000, lt_of_lt_of_eq (by omega : (i 0).val / 8000 < 200) N_2.symm⟩, rfl⟩
  obtain ⟨e0, e1, e2, e3, e4, e5, e6⟩ := blockIdx2 t
  refine ⟨t, flush2_3 t, ?_⟩
  rw [inBlock2]
  intro a
  match a with
  | ⟨0, _⟩ => show win2_3.index t (0 : Fin 2) * 8000 ≤ (i 0).val ∧ (i 0).val < win2_3.index t (0 : Fin 2) * 8000 + 8000; omega
  | ⟨1, _⟩ => show win2_3.index t (1 : Fin 2) * 64 ≤ (i 1).val ∧ (i 1).val < win2_3.index t (1 : Fin 2) * 64 + 64; omega

/-- Region 2 (the width-64 edge-linear call), the same. -/
theorem final2 (c : Dev nD) :
    (dat2 (F := Ideal) V c).arrAt 3 cfg2.N = Cert.Gine.edgeLin (V c main_arg1) (V c main_arg4) (V c main_arg5) :=
  (dat2 (F := Ideal) V c).arrAt_eq_of_cover 3 _ (fun t _ => writeBack2 V c t) rowsCovered2

end Cert.KernelIdeal.EdgeLin

end
-- ==== Proof.EdgeLinRef.lean ====
import proofs.«414903_j12919261627157_3_alg».proof.Defs
import proofs.«414903_j12919261627157_3_alg».proof.Proof.Gen.ReferenceIdeal.Run
import proofs.«414903_j12919261627157_3_alg».proof.Proof.Gen.ReferenceIdeal.Read
import proofs.«414903_j12919261627157_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.EdgeLin

open Idealize.ShloMosaic Idealize.ShloMosaic.TcCoe Idealize.SL.Sem Idealize.ShloMosaic.ValueIdx
open Cert.ReferenceIdeal Cert.ReferenceIdeal.Read

/-- The reference's first edge-linear stage (dot_general plus broadcast bias, width 7) is the per-edge linear map:
    entry (r, j) is the sum over the four shared coordinates plus the bias entry j, the two broadcasts reading the bias at j. -/
theorem ref_v7 (x1 : (⟨S1600000x4, .f32⟩ : BufTy).Contents (Elt Ideal)) (x2 : (⟨S4x7, .f32⟩ : BufTy).Contents (Elt Ideal)) (x3 : (⟨S7, .f32⟩ : BufTy).Contents (Elt Ideal)) :
    val_main_v7 (F := Ideal) x1 x2 x3 = Cert.Gine.edgeLin x1 x2 x3 := by
  funext i
  rw [val_main_v7_apply, val_main_v4_apply, val_main_v6_apply, val_main_v5_apply]
  -- the operand indices of the product and of the twice-broadcast bias, as coordinates of `i`
  have el : ∀ k : Fin 4, lidx_main_v4 i k = ix2 (i 0) k := fun k =>
    funext fun a => Fin.ext (by match a with | ⟨0, _⟩ => rfl | ⟨1, _⟩ => rfl)
  have er : ∀ k : Fin 4, ridx_main_v4 i k = ix2 k (i 1) := fun k =>
    funext fun a => Fin.ext (by match a with | ⟨0, _⟩ => rfl | ⟨1, _⟩ => rfl)
  have eb : idx_main_v5 (idx_main_v6 i) = ix1 (i 1) :=
    funext fun a => Fin.ext (by match a with | ⟨0, _⟩ => rfl)
  simp only [el, er, eb]
  rfl

/-- The second (width 64), the same entry by entry. -/
theorem ref_v38 (x1 : (⟨S1600000x4, .f32⟩ : BufTy).Contents (Elt Ideal)) (x4 : (⟨S4x64, .f32⟩ : BufTy).Contents (Elt Ideal)) (x5 : (⟨S64, .f32⟩ : BufTy).Contents (Elt Ideal)) :
    val_main_v38 (F := Ideal) x1 x4 x5 = Cert.Gine.edgeLin x1 x4 x5 := by
  funext i
  rw [val_main_v38_apply, val_main_v35_apply, val_main_v37_apply, val_main_v36_apply]
  -- the operand indices of the product and of the twice-broadcast bias, as coordinates of `i`
  have el : ∀ k : Fin 4, lidx_main_v35 i k = ix2 (i 0) k := fun k =>
    funext fun a => Fin.ext (by match a with | ⟨0, _⟩ => rfl | ⟨1, _⟩ => rfl)
  have er : ∀ k : Fin 4, ridx_main_v35 i k = ix2 k (i 1) := fun k =>
    funext fun a => Fin.ext (by match a with | ⟨0, _⟩ => rfl | ⟨1, _⟩ => rfl)
  have eb : idx_main_v36 (idx_main_v37 i) = ix1 (i 1) :=
    funext fun a => Fin.ext (by match a with | ⟨0, _⟩ => rfl)
  simp only [el, er, eb]
  rfl

end Cert.ReferenceIdeal.EdgeLin

end
-- ==== Proof.NodeMlpKernel.lean ====
/-
  The per-node two-layer map of the kernel program, regions 1 and 3: each grid point stores, into its block of 5000 rows,
  relu (relu ((x + agg) · Wa + ba) · Wb + bb) of its row blocks; the 20 blocks tile the 100000 rows, so the output array
  after the region is the per-node map of the six operand arrays, entry by entry.
-/
import proofs.«414903_j12919261627157_3_alg».proof.Defs
import proofs.«414903_j12919261627157_3_alg».proof.Proof.Gen.KernelIdeal.Frame
import proofs.«414903_j12919261627157_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeMlp

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The contraction [5000,7] × [7,64] read at an entry -/

/-- The left operand's row coordinate is the output's row. -/
theorem lhs7_0 (i : S5000x64.Idx) (q : dot_S5000x7_S7x64_S5000x64_1_0_0_1_n_n.contr.Idx) :
    (dot_S5000x7_S7x64_S5000x64_1_0_0_1_n_n.lhsIdx i q 0).val = (i 0).val := by
  unfold DotDims.lhsIdx
  rw [dif_neg (show ¬(0 : Fin S5000x7.rank) ∈ dot_S5000x7_S7x64_S5000x64_1_0_0_1_n_n.lhsBatch by decide), dif_pos (show (0 : Fin S5000x7.rank) ∈ dot_S5000x7_S7x64_S5000x64_1_0_0_1_n_n.lhsNonContracting by decide)]
  rfl
/-- The left operand's column coordinate is the contraction index. -/
theorem lhs7_1 (i : S5000x64.Idx) (q : dot_S5000x7_S7x64_S5000x64_1_0_0_1_n_n.contr.Idx) :
    (dot_S5000x7_S7x64_S5000x64_1_0_0_1_n_n.lhsIdx i q 1).val = (q ⟨0, by decide⟩).val :=
  dot_S5000x7_S7x64_S5000x64_1_0_0_1_n_n.lhsIdx_val_of_single rfl i q
/-- The right operand's row coordinate is the contraction index. -/
theorem rhs7_0 (i : S5000x64.Idx) (q : dot_S5000x7_S7x64_S5000x64_1_0_0_1_n_n.contr.Idx) :
    (dot_S5000x7_S7x64_S5000x64_1_0_0_1_n_n.rhsIdx i q 0).val = (q ⟨0, by decide⟩).val :=
  dot_S5000x7_S7x64_S5000x64_1_0_0_1_n_n.rhsIdx_val_of_single rfl i q
/-- The right operand's column coordinate is the output's column. -/
theorem rhs7_1 (i : S5000x64.Idx) (q : dot_S5000x7_S7x64_S5000x64_1_0_0_1_n_n.contr.Idx) :
    (dot_S5000x7_S7x64_S5000x64_1_0_0_1_n_n.rhsIdx i q 1).val = (i 1).val := by
  unfold DotDims.rhsIdx
  rw [dif_neg (show ¬(1 : Fin S7x64.rank) ∈ dot_S5000x7_S7x64_S5000x64_1_0_0_1_n_n.rhsBatch by decide), dif_pos (show (1 : Fin S7x64.rank) ∈ dot_S5000x7_S7x64_S5000x64_1_0_0_1_n_n.rhsNonContracting by decide)]
  rfl

/-- The product into the zero accumulator at entry (r, k): row r of the left operand against column k of the right. -/
theorem matmul7_apply (lhs : FVec Ideal S5000x7 .bf16) (rhs : FVec Ideal S7x64 .bf16) (r : Fin 5000) (k : Fin 64) :
    matmul dot_S5000x7_S7x64_S5000x64_1_0_0_1_n_n none lhs rhs (constant (F := Ideal) S5000x64 .f32 0x00000000#32) (ix2 r k)
      = ∑ l : Fin 7, lhs (ix2 r l) * rhs (ix2 l k) := by
  simp only [matmul]
  rw [Ideal.matmul_constant_zero_apply, ← Equiv.sum_comp (ValueIdx.contrEquiv1 dot_S5000x7_S7x64_S5000x64_1_0_0_1_n_n 7 rfl rfl).symm]
  refine Finset.sum_congr rfl fun l _ => ?_
  have hl := ValueIdx.contrEquiv1_symm_val dot_S5000x7_S7x64_S5000x64_1_0_0_1_n_n 7 rfl rfl l
  have el : dot_S5000x7_S7x64_S5000x64_1_0_0_1_n_n.lhsIdx (ix2 r k) ((ValueIdx.contrEquiv1 dot_S5000x7_S7x64_S5000x64_1_0_0_1_n_n 7 rfl rfl).symm l) = ix2 r l := funext fun a => Fin.ext (by
    match a with
    | ⟨0, _⟩ => exact lhs7_0 _ _
    | ⟨1, _⟩ => exact (lhs7_1 _ _).trans hl)
  have er : dot_S5000x7_S7x64_S5000x64_1_0_0_1_n_n.rhsIdx (ix2 r k) ((ValueIdx.contrEquiv1 dot_S5000x7_S7x64_S5000x64_1_0_0_1_n_n 7 rfl rfl).symm l) = ix2 l k := funext fun a => Fin.ext (by
    match a with
    | ⟨0, _⟩ => exact (rhs7_0 _ _).trans hl
    | ⟨1, _⟩ => exact rhs7_1 _ _)
  rw [el, er]

/-! ## The contraction [5000,64] × [64,64] read at an entry -/

/-- The left operand's row coordinate is the output's row. -/
theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction index. -/
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction index. -/
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's column. -/
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero accumulator at entry (r, k): row r of the left operand against column k of the right. -/
theorem matmul64_apply (lhs : FVec Ideal S5000x64 .bf16) (rhs : FVec Ideal S64x64 .bf16) (r : Fin 5000) (k : Fin 64) :
    matmul dot_S5000x64_S64x64_S5000x64_1_0_0_1_n_n none lhs rhs (constant (F := Ideal) S5000x64 .f32 0x00000000#32) (ix2 r k)
      = ∑ l : Fin 64, lhs (ix2 r l) * rhs (ix2 l k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun l _ => ?_
  have hl := ValueIdx.contrEquiv1_symm_val dot_S5000x64_S64x64_S5000x64_1_0_0_1_n_n 64 rfl rfl l
  have el : dot_S5000x64_S64x64_S5000x64_1_0_0_1_n_n.lhsIdx (ix2 r k) ((ValueIdx.contrEquiv1 dot_S5000x64_S64x64_S5000x64_1_0_0_1_n_n 64 rfl rfl).symm l) = ix2 r l := funext fun a => Fin.ext (by
    match a with
    | ⟨0, _⟩ => exact lhs64_0 _ _
    | ⟨1, _⟩ => exact (lhs64_1 _ _).trans hl)
  have er : dot_S5000x64_S64x64_S5000x64_1_0_0_1_n_n.rhsIdx (ix2 r k) ((ValueIdx.contrEquiv1 dot_S5000x64_S64x64_S5000x64_1_0_0_1_n_n 64 rfl rfl).symm l) = ix2 l k := funext fun a => Fin.ext (by
    match a with
    | ⟨0, _⟩ => exact (rhs64_0 _ _).trans hl
    | ⟨1, _⟩ => exact rhs64_1 _ _)
  rw [el, er]

/-! ## The bias row under every row of the block -/

/-- A length-64 vector cast to one row and broadcast down 5000 rows reads, at entry (r, j), the vector at j. -/
theorem bias_apply (v : FVec Ideal S64 .f32) (r : Fin 5000) (j : Fin 64) :
    broadcastTo S5000x64 (shapeCast S1x64 v shapeCasts_S64_S1x64) broadcasts_S1x64_S5000x64 (ix2 r j) = v (ix1 j) := by
  refine (broadcastTo_apply _ broadcasts_S1x64_S5000x64 (ix2 r j) (ix2 (⟨0, Nat.one_pos⟩ : Fin 1) j) (fun a => ?_)).trans ?_
  · match a with
    | ⟨0, _⟩ => show 0 = if (1 : Nat) = 1 then 0 else r.val; rw [if_pos rfl]
    | ⟨1, _⟩ => show j.val = if (64 : Nat) = 1 then 0 else j.val; rw [if_neg (by decide)]
  · exact shapeCast_apply v shapeCasts_S64_S1x64 (ix2 (⟨0, Nat.one_pos⟩ : Fin 1) j) (ix1 j)
      (by rewrite [Shape.rowMajor_val_two, Shape.rowMajor_val_one]; show j.val = 0 * 64 + j.val; omega)

/-- The all-zero f32 word is the real number zero. -/
theorem zero_word : FloatOps.ofBits (F := Ideal) FTy.f32 0x00000000#32 = 0 := Ideal.ofBits_zero_f32

/-! ## The body's result at an entry of the block -/

/-- Region 1's stored block at entry (r, j): two dense layers over the sum of the two loaded row blocks. -/
theorem pay1_apply (x0 x1 : Vec Ideal S5000x7 .f32) (x2 : Vec Ideal S7x64 .f32) (x3 : Vec Ideal S64 .f32)
    (x4 : Vec Ideal S64x64 .f32) (x5 : Vec Ideal S64 .f32) (r : Fin 5000) (j : Fin 64) :
    k1_pay1 (F := Ideal) x0 x1 x2 x3 x4 x5 (ix2 r j)
      = max ((∑ k : Fin 64, max ((∑ l : Fin 7, (x0 (ix2 r l) + x1 (ix2 r l)) * x2 (ix2 l k)) + x3 (ix1 k)) 0 * x4 (ix2 k j))
          + x5 (ix1 j)) 0 := by
  unfold k1_pay1
  simp only [shapeCast_self]
  rw [maximumf_apply, addf_apply, broadcast_apply, zero_word, bias_apply, matmul64_apply]
  refine congrArg (fun s => max (s + x5 (ix1 j)) 0) (Finset.sum_congr rfl fun k _ => ?_)
  rw [truncf_apply, truncf_apply, maximumf_apply, addf_apply, broadcast_apply, bias_apply, matmul7_apply]
  refine congrArg (fun s => max (s + x3 (ix1 k)) 0 * x4 (ix2 k j)) (Finset.sum_congr rfl fun l _ => ?_)
  rw [truncf_apply, truncf_apply, addf_apply]

/-- Region 3's stored block at entry (r, j): the same two layers at input width 64. -/
theorem pay3_apply (x0 x1 : Vec Ideal S5000x64 .f32) (x2 : Vec Ideal S64x64 .f32) (x3 : Vec Ideal S64 .f32)
    (x4 : Vec Ideal S64x64 .f32) (x5 : Vec Ideal S64 .f32) (r : Fin 5000) (j : Fin 64) :
    k3_pay1 (F := Ideal) x0 x1 x2 x3 x4 x5 (ix2 r j)
      = max ((∑ k : Fin 64, max ((∑ l : Fin 64, (x0 (ix2 r l) + x1 (ix2 r l)) * x2 (ix2 l k)) + x3 (ix1 k)) 0 * x4 (ix2 k j))
          + x5 (ix1 j)) 0 := by
  unfold k3_pay1
  simp only [shapeCast_self]
  rw [maximumf_apply, addf_apply, broadcast_apply, zero_word, bias_apply, matmul64_apply]
  refine congrArg (fun s => max (s + x5 (ix1 j)) 0) (Finset.sum_congr rfl fun k _ => ?_)
  rw [truncf_apply, truncf_apply, maximumf_apply, addf_apply, broadcast_apply, bias_apply, matmul64_apply]
  refine congrArg (fun s => max (s + x3 (ix1 k)) 0 * x4 (ix2 k j)) (Finset.sum_congr rfl fun l _ => ?_)
  rw [truncf_apply, truncf_apply, addf_apply]

/-! ## Zero offsets -/

theorem hz2 : (![0, 0] : Fin 2 → Nat) = fun _ => 0 := funext fun a => by fin_cases a <;> rfl
theorem hz1 : (![0] : Fin 1 → Nat) = fun _ => 0 := funext fun a => by fin_cases a; rfl

/-! ## Region 1: from the blocks to the array -/

/-- A block of the spec's array is a restriction of it: the stored block at (r, j), over row blocks that are rows
    5000·T + r of two arrays, is the per-node map of those arrays at row 5000·T + r. -/
theorem block1_apply (A0 A1 : FVec Ideal ⟨2, ![100000, 7]⟩ .f32) (Wa : FVec Ideal ⟨2, ![7, 64]⟩ .f32)
    (ba : FVec Ideal ⟨1, ![64]⟩ .f32) (Wb : FVec Ideal ⟨2, ![64, 64]⟩ .f32) (bb : FVec Ideal ⟨1, ![64]⟩ .f32)
    (x0 x1 : Vec Ideal S5000x7 .f32) (T : Nat)
    (h0 : ∀ (x : S5000x7.Idx) (k : S100000x7.Idx), (k 0).val = 5000 * T + (x 0).val → (k 1).val = (x 1).val → x0 x = A0 k)
    (h1 : ∀ (x : S5000x7.Idx) (k : S100000x7.Idx), (k 0).val = 5000 * T + (x 0).val → (k 1).val = (x 1).val → x1 x = A1 k)
    (y : S5000x64.Idx) (i : S100000x64.Idx) (hi0 : (i 0).val = 5000 * T + (y 0).val) (hi1 : (i 1).val = (y 1).val) :
    k1_pay1 (F := Ideal) x0 x1 Wa ba Wb bb y = Cert.Gine.mlp A0 A1 Wa ba Wb bb i := by
  obtain ⟨r, j, rfl⟩ : ∃ (r : Fin 5000) (j : Fin 64), y = ix2 r j := ⟨y 0, y 1, eq_ix2 y⟩
  rw [pay1_apply]
  show _ = Cert.Gine.mlpAt A0 A1 Wa ba Wb bb (i 0) (i 1)
  unfold Cert.Gine.mlpAt
  have hj : i 1 = j := Fin.ext hi1
  rw [hj]
  refine congrArg (fun s => max (s + bb (ix1 j)) 0) (Finset.sum_congr rfl fun k _ => ?_)
  refine congrArg (fun s => max (s + ba (ix1 k)) 0 * Wb (ix2 k j)) (Finset.sum_congr rfl fun l _ => ?_)
  rw [h0 (ix2 r l) (ix2 (i 0) l) hi0 rfl, h1 (ix2 r l) (ix2 (i 0) l) hi0 rfl]

/-- The windows' index maps, decided once over the 20 points: the three row-blocked windows sit at block (t, 0), the
    four whole-array windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every row block of the output is some point's. -/
theorem idx_onto1 : ∀ q : Fin 20, ∃ t : Fin cfg1.N, win1_6.index t = ![q.val, 0] :=
  (by decide +kernel : ∀ q : Fin 20, ∃ t : Fin grid1.N, win1_6.index t = ![q.val, 0])

/-- The first operand's block at point t is rows 5000·t … 5000·t + 4999 of its array. -/
theorem iblk1_0_apply (c : Dev nD) (t : Fin cfg1.N) (x : S5000x7.Idx) (k : S100000x7.Idx)
    (hk0 : (k 0).val = 5000 * t.val + (x 0).val) (hk1 : (k 1).val = (x 1).val) :
    (iblk1 (F := Ideal) V c 0 t : Vec Ideal S5000x7 .f32) x = (V c main_arg0 : S100000x7.Idx → Elt Ideal .f32) k := by
  obtain ⟨e0, e1, -⟩ := idx_facts1 t
  unfold iblk1
  rw [View.read_apply]
  show V c main_arg0 _ = V c main_arg0 _
  refine congrArg _ (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 7 + 1 * (x 1).val = (k 1).val; rw [e1, hk1]; omega

/-- The second operand's block at point t is the same rows of its array. -/
theorem iblk1_1_apply (c : Dev nD) (t : Fin cfg1.N) (x : S5000x7.Idx) (k : S100000x7.Idx)
    (hk0 : (k 0).val = 5000 * t.val + (x 0).val) (hk1 : (k 1).val = (x 1).val) :
    (iblk1 (F := Ideal) V c 1 t : Vec Ideal S5000x7 .f32) x = (V c main_v10 : S100000x7.Idx → Elt Ideal .f32) k := by
  obtain ⟨-, -, e2, e3, -⟩ := idx_facts1 t
  unfold iblk1
  rw [View.read_apply]
  show V c main_v10 _ = V c main_v10 _
  refine congrArg _ (funext fun a => Fin.ext ?_)
  match a with
  | ⟨0, _⟩ => show win1_1.index t (0 : Fin 2) * 5000 + 1 * (x 0).val = (k 0).val; rw [e2, hk0]; omega
  | ⟨1, _⟩ => show win1_1.index t (1 : Fin 2) * 7 + 1 * (x 1).val = (k 1).val; rw [e3, hk1]; omega

/-- The first layer's weights are staged whole at every point. -/
theorem iblk1_2_eq (c : Dev nD) (t : Fin cfg1.N) :
    (iblk1 (F := Ideal) V c 2 t : Vec Ideal S7x64 .f32) = V c main_arg6 := by
  obtain ⟨-, -, -, -, e4, e5, -⟩ := idx_facts1 t
  unfold iblk1
  funext x
  rw [View.read_apply]
  show V c main_arg6 _ = V c main_arg6 x
  refine congrArg _ (funext fun a => Fin.ext ?_)
  match a with
  | ⟨0, _⟩ => show win1_2.index t (0 : Fin 2) * 7 + 1 * (x 0).val = (x 0).val; rw [e4]; omega
  | ⟨1, _⟩ => show win1_2.index t (1 : Fin 2) * 64 + 1 * (x 1).val = (x 1).val; rw [e5]; omega

/-- The first layer's bias is staged whole at every point. -/
theorem iblk1_3_eq (c : Dev nD) (t : Fin cfg1.N) :
    (iblk1 (F := Ideal) V c 3 t : Vec Ideal S64 .f32) = V c main_arg7 := by
  obtain ⟨-, -, -, -, -, -, e6, -⟩ := idx_facts1 t
  unfold iblk1
  funext x
  rw [View.read_apply]
  show V c main_arg7 _ = V c main_arg7 x
  refine congrArg _ (funext fun a => Fin.ext ?_)
  match a with
  | ⟨0, _⟩ => show win1_3.index t (0 : Fin 1) * 64 + 1 * (x 0).val = (x 0).val; rw [e6]; omega

/-- The second layer's weights are staged whole at every point. -/
theorem iblk1_4_eq (c : Dev nD) (t : Fin cfg1.N) :
    (iblk1 (F := Ideal) V c 4 t : Vec Ideal S64x64 .f32) = V c main_arg8 := by
  obtain ⟨-, -, -, -, -, -, -, e7, e8, -⟩ := idx_facts1 t
  unfold iblk1
  funext x
  rw [View.read_apply]
  show V c main_arg8 _ = V c main_arg8 x
  refine congrArg _ (funext fun a => Fin.ext ?_)
  match a with
  | ⟨0, _⟩ => show win1_4.index t (0 : Fin 2) * 64 + 1 * (x 0).val = (x 0).val; rw [e7]; omega
  | ⟨1, _⟩ => show win1_4.index t (1 : Fin 2) * 64 + 1 * (x 1).val = (x 1).val; rw [e8]; omega

/-- The second layer's bias is staged whole at every point. -/
theorem iblk1_5_eq (c : Dev nD) (t : Fin cfg1.N) :
    (iblk1 (F := Ideal) V c 5 t : Vec Ideal S64 .f32) = V c main_arg9 := by
  obtain ⟨-, -, -, -, -, -, -, -, -, e9, -⟩ := idx_facts1 t
  unfold iblk1
  funext x
  rw [View.read_apply]
  show V c main_arg9 _ = V c main_arg9 x
  refine congrArg _ (funext fun a => Fin.ext ?_)
  match a with
  | ⟨0, _⟩ => show win1_5.index t (0 : Fin 1) * 64 + 1 * (x 0).val = (x 0).val; rw [e9]; omega

/-- What point t writes back is block t of the per-node map of the six arrays as the region found them. -/
theorem flushed1_eq (c : Dev nD) (t : Fin cfg1.N) :
    (dat1 (F := Ideal) V c).flushed 6 t = ((cfg1.win 6).blk t).view.read (Elt Ideal)
      (Cert.Gine.mlp (V c main_arg0) (V c main_v10) (V c main_arg6) (V c main_arg7) (V c main_arg8) (V c main_arg9)) := by
  show (cfg1.win 6).cut (grid1.coords t) ((dat1 V c).after 6 t) = _
  rw [after1_6]
  unfold out1_6
  rw [View.canon_unit_zero hz2]
  simp only [View.ld_unit_zero (S := S5000x7) hz2, View.ld_unit_zero (S := S7x64) hz2, View.ld_unit_zero (S := S64) hz1,
    View.ld_unit_zero (S := S64x64) hz2]
  rw [iblk1_2_eq, iblk1_3_eq, iblk1_4_eq, iblk1_5_eq]
  obtain ⟨-, -, -, -, -, -, -, -, -, -, e10, e11⟩ := idx_facts1 t
  funext y
  refine block1_apply _ _ _ _ _ _ _ _ t.val (fun x k => iblk1_0_apply V c t x k) (fun x k => iblk1_1_apply V c t x k) y _ ?_ ?_
  · show win1_6.index t (0 : Fin 2) * 5000 + 1 * (y 0).val = 5000 * t.val + (y 0).val
    rw [e10]; omega
  · show win1_6.index t (1 : Fin 2) * 64 + 1 * (y 1).val = (y 1).val
    rw [e11]; omega

/-- An index of the output array is in point t's block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v11).slice (win1_6.rect t)).set ↔ _
  rw [View.set_slice_whole, Rect.mem_set_unit]
  exact Iff.rfl

/-- Every entry of the output array is covered: row i lies in the block of point i / 5000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- Region 1 (the node map of the first layer, input width 7): after its 20 points the output array is the
    per-node map of the six operand arrays as the region found them. -/
theorem final1 (c : Dev nD) :
    (dat1 (F := Ideal) V c).arrAt 6 cfg1.N
      = Cert.Gine.mlp (V c main_arg0) (V c main_v10) (V c main_arg6) (V c main_arg7) (V c main_arg8) (V c main_arg9) :=
  (dat1 (F := Ideal) V c).arrAt_eq_of_cover 6 _ (fun t _ => flushed1_eq V c t) cover1

/-! ## Region 3: from the blocks to the array -/

/-- A block of the spec's array is a restriction of it: the stored block at (r, j), over row blocks that are rows
    5000·T + r of two arrays, is the per-node map of those arrays at row 5000·T + r. -/
theorem block3_apply (A0 A1 : FVec Ideal ⟨2, ![100000, 64]⟩ .f32) (Wa : FVec Ideal ⟨2, ![64, 64]⟩ .f32)
    (ba : FVec Ideal ⟨1, ![64]⟩ .f32) (Wb : FVec Ideal ⟨2, ![64, 64]⟩ .f32) (bb : FVec Ideal ⟨1, ![64]⟩ .f32)
    (x0 x1 : Vec Ideal S5000x64 .f32) (T : Nat)
    (h0 : ∀ (x : S5000x64.Idx) (k : S100000x64.Idx), (k 0).val = 5000 * T + (x 0).val → (k 1).val = (x 1).val → x0 x = A0 k)
    (h1 : ∀ (x : S5000x64.Idx) (k : S100000x64.Idx), (k 0).val = 5000 * T + (x 0).val → (k 1).val = (x 1).val → x1 x = A1 k)
    (y : S5000x64.Idx) (i : S100000x64.Idx) (hi0 : (i 0).val = 5000 * T + (y 0).val) (hi1 : (i 1).val = (y 1).val) :
    k3_pay1 (F := Ideal) x0 x1 Wa ba Wb bb y = Cert.Gine.mlp A0 A1 Wa ba Wb bb i := by
  obtain ⟨r, j, rfl⟩ : ∃ (r : Fin 5000) (j : Fin 64), y = ix2 r j := ⟨y 0, y 1, eq_ix2 y⟩
  rw [pay3_apply]
  show _ = Cert.Gine.mlpAt A0 A1 Wa ba Wb bb (i 0) (i 1)
  unfold Cert.Gine.mlpAt
  have hj : i 1 = j := Fin.ext hi1
  rw [hj]
  refine congrArg (fun s => max (s + bb (ix1 j)) 0) (Finset.sum_congr rfl fun k _ => ?_)
  refine congrArg (fun s => max (s + ba (ix1 k)) 0 * Wb (ix2 k j)) (Finset.sum_congr rfl fun l _ => ?_)
  rw [h0 (ix2 r l) (ix2 (i 0) l) hi0 rfl, h1 (ix2 r l) (ix2 (i 0) l) hi0 rfl]

/-- The windows' index maps, decided once over the 20 points: the three row-blocked windows sit at block (t, 0), the
    four whole-array windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Every row block of the output is some point's. -/
theorem idx_onto3 : ∀ q : Fin 20, ∃ t : Fin cfg3.N, win3_6.index t = ![q.val, 0] :=
  (by decide +kernel : ∀ q : Fin 20, ∃ t : Fin grid3.N, win3_6.index t = ![q.val, 0])

/-- The first operand's block at point t is rows 5000·t … 5000·t + 4999 of its array. -/
theorem iblk3_0_apply (c : Dev nD) (t : Fin cfg3.N) (x : S5000x64.Idx) (k : S100000x64.Idx)
    (hk0 : (k 0).val = 5000 * t.val + (x 0).val) (hk1 : (k 1).val = (x 1).val) :
    (iblk3 (F := Ideal) V c 0 t : Vec Ideal S5000x64 .f32) x = (V c main_v11 : S100000x64.Idx → Elt Ideal .f32) k := by
  obtain ⟨e0, e1, -⟩ := idx_facts3 t
  unfold iblk3
  rw [View.read_apply]
  show V c main_v11 _ = V c main_v11 _
  refine congrArg _ (funext fun a => Fin.ext ?_)
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- The second operand's block at point t is the same rows of its array. -/
theorem iblk3_1_apply (c : Dev nD) (t : Fin cfg3.N) (x : S5000x64.Idx) (k : S100000x64.Idx)
    (hk0 : (k 0).val = 5000 * t.val + (x 0).val) (hk1 : (k 1).val = (x 1).val) :
    (iblk3 (F := Ideal) V c 1 t : Vec Ideal S5000x64 .f32) x = (V c main_v18 : S100000x64.Idx → Elt Ideal .f32) k := by
  obtain ⟨-, -, e2, e3, -⟩ := idx_facts3 t
  unfold iblk3
  rw [View.read_apply]
  show V c main_v18 _ = V c main_v18 _
  refine congrArg _ (funext fun a => Fin.ext ?_)
  match a with
  | ⟨0, _⟩ => show win3_1.index t (0 : Fin 2) * 5000 + 1 * (x 0).val = (k 0).val; rw [e2, hk0]; omega
  | ⟨1, _⟩ => show win3_1.index t (1 : Fin 2) * 64 + 1 * (x 1).val = (k 1).val; rw [e3, hk1]; omega

/-- The first layer's weights are staged whole at every point. -/
theorem iblk3_2_eq (c : Dev nD) (t : Fin cfg3.N) :
    (iblk3 (F := Ideal) V c 2 t : Vec Ideal S64x64 .f32) = V c main_arg10 := by
  obtain ⟨-, -, -, -, e4, e5, -⟩ := idx_facts3 t
  unfold iblk3
  funext x
  rw [View.read_apply]
  show V c main_arg10 _ = V c main_arg10 x
  refine congrArg _ (funext fun a => Fin.ext ?_)
  match a with
  | ⟨0, _⟩ => show win3_2.index t (0 : Fin 2) * 64 + 1 * (x 0).val = (x 0).val; rw [e4]; omega
  | ⟨1, _⟩ => show win3_2.index t (1 : Fin 2) * 64 + 1 * (x 1).val = (x 1).val; rw [e5]; omega

/-- The first layer's bias is staged whole at every point. -/
theorem iblk3_3_eq (c : Dev nD) (t : Fin cfg3.N) :
    (iblk3 (F := Ideal) V c 3 t : Vec Ideal S64 .f32) = V c main_arg11 := by
  obtain ⟨-, -, -, -, -, -, e6, -⟩ := idx_facts3 t
  unfold iblk3
  funext x
  rw [View.read_apply]
  show V c main_arg11 _ = V c main_arg11 x
  refine congrArg _ (funext fun a => Fin.ext ?_)
  match a with
  | ⟨0, _⟩ => show win3_3.index t (0 : Fin 1) * 64 + 1 * (x 0).val = (x 0).val; rw [e6]; omega

/-- The second layer's weights are staged whole at every point. -/
theorem iblk3_4_eq (c : Dev nD) (t : Fin cfg3.N) :
    (iblk3 (F := Ideal) V c 4 t : Vec Ideal S64x64 .f32) = V c main_arg12 := by
  obtain ⟨-, -, -, -, -, -, -, e7, e8, -⟩ := idx_facts3 t
  unfold iblk3
  funext x
  rw [View.read_apply]
  show V c main_arg12 _ = V c main_arg12 x
  refine congrArg _ (funext fun a => Fin.ext ?_)
  match a with
  | ⟨0, _⟩ => show win3_4.index t (0 : Fin 2) * 64 + 1 * (x 0).val = (x 0).val; rw [e7]; omega
  | ⟨1, _⟩ => show win3_4.index t (1 : Fin 2) * 64 + 1 * (x 1).val = (x 1).val; rw [e8]; omega

/-- The second layer's bias is staged whole at every point. -/
theorem iblk3_5_eq (c : Dev nD) (t : Fin cfg3.N) :
    (iblk3 (F := Ideal) V c 5 t : Vec Ideal S64 .f32) = V c main_arg13 := by
  obtain ⟨-, -, -, -, -, -, -, -, -, e9, -⟩ := idx_facts3 t
  unfold iblk3
  funext x
  rw [View.read_apply]
  show V c main_arg13 _ = V c main_arg13 x
  refine congrArg _ (funext fun a => Fin.ext ?_)
  match a with
  | ⟨0, _⟩ => show win3_5.index t (0 : Fin 1) * 64 + 1 * (x 0).val = (x 0).val; rw [e9]; omega

/-- What point t writes back is block t of the per-node map of the six arrays as the region found them. -/
theorem flushed3_eq (c : Dev nD) (t : Fin cfg3.N) :
    (dat3 (F := Ideal) V c).flushed 6 t = ((cfg3.win 6).blk t).view.read (Elt Ideal)
      (Cert.Gine.mlp (V c main_v11) (V c main_v18) (V c main_arg10) (V c main_arg11) (V c main_arg12) (V c main_arg13)) := by
  show (cfg3.win 6).cut (grid3.coords t) ((dat3 V c).after 6 t) = _
  rw [after3_6]
  unfold out3_6
  rw [View.canon_unit_zero hz2]
  simp only [View.ld_unit_zero (S := S5000x64) hz2, View.ld_unit_zero (S := S64x64) hz2, View.ld_unit_zero (S := S64) hz1,
    View.ld_unit_zero (S := S64x64) hz2]
  rw [iblk3_2_eq, iblk3_3_eq, iblk3_4_eq, iblk3_5_eq]
  obtain ⟨-, -, -, -, -, -, -, -, -, -, e10, e11⟩ := idx_facts3 t
  funext y
  refine block3_apply _ _ _ _ _ _ _ _ t.val (fun x k => iblk3_0_apply V c t x k) (fun x k => iblk3_1_apply V c t x k) y _ ?_ ?_
  · show win3_6.index t (0 : Fin 2) * 5000 + 1 * (y 0).val = 5000 * t.val + (y 0).val
    rw [e10]; omega
  · show win3_6.index t (1 : Fin 2) * 64 + 1 * (y 1).val = (y 1).val
    rw [e11]; omega

/-- An index of the output array is in point t's block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v19).slice (win3_6.rect t)).set ↔ _
  rw [View.set_slice_whole, Rect.mem_set_unit]
  exact Iff.rfl

/-- Every entry of the output array is covered: row i lies in the block of point i / 5000. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := idx_onto3 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- Region 3 (the node map of the second layer, input width 64). -/
theorem final3 (c : Dev nD) :
    (dat3 (F := Ideal) V c).arrAt 6 cfg3.N
      = Cert.Gine.mlp (V c main_v11) (V c main_v18) (V c main_arg10) (V c main_arg11) (V c main_arg12) (V c main_arg13) :=
  (dat3 (F := Ideal) V c).arrAt_eq_of_cover 6 _ (fun t _ => flushed3_eq V c t) cover3

end Cert.KernelIdeal.NodeMlp

end
-- ==== Proof.NodeMlpRef.lean ====
import proofs.«414903_j12919261627157_3_alg».proof.Defs
import proofs.«414903_j12919261627157_3_alg».proof.Proof.Gen.ReferenceIdeal.Run
import proofs.«414903_j12919261627157_3_alg».proof.Proof.Gen.ReferenceIdeal.Read
import proofs.«414903_j12919261627157_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.NodeMlp

open Idealize.ShloMosaic Idealize.ShloMosaic.TcCoe Idealize.SL.Sem Idealize.ShloMosaic.ValueIdx
open Cert.ReferenceIdeal Cert.ReferenceIdeal.Read

/-! ## Index arithmetic of the first layer

At the entry (r, j) of a 100000 x 64 result, a contraction over k reads its left operand at (r, k) and its right
operand at (k, j); a bias vector broadcast along the rows is read at j. -/

/-- The second contraction reads the hidden activations at (r, k). -/
theorem lidx26 (r : Fin 100000) (j k : Fin 64) : lidx_main_v26 (ix2 r j) k = ix2 r k :=
  funext fun a => Fin.ext (by match a with | ⟨0, _⟩ => rfl | ⟨1, _⟩ => rfl)
/-- The second contraction reads its weights at (k, j). -/
theorem ridx26 (r : Fin 100000) (j k : Fin 64) : ridx_main_v26 (ix2 r j) k = ix2 k j :=
  funext fun a => Fin.ext (by match a with | ⟨0, _⟩ => rfl | ⟨1, _⟩ => rfl)
/-- The first contraction, at the hidden entry (r, k), reads x + agg at (r, l). -/
theorem lidx21 (r : Fin 100000) (k : Fin 64) (l : Fin 7) : lidx_main_v21 (ix2 r k) l = ix2 r l :=
  funext fun a => Fin.ext (by match a with | ⟨0, _⟩ => rfl | ⟨1, _⟩ => rfl)
/-- The first contraction, at the hidden entry (r, k), reads its weights at (l, k). -/
theorem ridx21 (r : Fin 100000) (k : Fin 64) (l : Fin 7) : ridx_main_v21 (ix2 r k) l = ix2 l k :=
  funext fun a => Fin.ext (by match a with | ⟨0, _⟩ => rfl | ⟨1, _⟩ => rfl)
/-- The first bias, broadcast to a row and then along the rows, is read at the column k. -/
theorem bias23 (r : Fin 100000) (k : Fin 64) : idx_main_v22 (idx_main_v23 (ix2 r k)) = ix1 k :=
  funext fun a => Fin.ext (by match a with | ⟨0, _⟩ => rfl)
/-- The second bias, broadcast the same way, is read at the column j. -/
theorem bias28 (r : Fin 100000) (j : Fin 64) : idx_main_v27 (idx_main_v28 (ix2 r j)) = ix1 j :=
  funext fun a => Fin.ext (by match a with | ⟨0, _⟩ => rfl)

/-- The reference's first-layer node stage (x + agg, two dot_generals with broadcast biases, a relu after each) is
    the per-node map of x and of the scatter-add stage below it. -/
theorem ref_v30 (x0 : (⟨S100000x7, .f32⟩ : BufTy).Contents (Elt Ideal)) (x1 : (⟨S1600000x4, .f32⟩ : BufTy).Contents (Elt Ideal)) (x2 : (⟨S4x7, .f32⟩ : BufTy).Contents (Elt Ideal)) (x3 : (⟨S7, .f32⟩ : BufTy).Contents (Elt Ideal))
    (x6 : (⟨S7x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x16 : (⟨S2x1600000, .i32⟩ : BufTy).Contents (Elt Ideal)) :
    val_main_v30 (F := Ideal) x0 x1 x2 x3 x6 x7 x8 x9 x16
      = Cert.Gine.mlp x0 (val_main_v19 (F := Ideal) x0 x1 x2 x3 x16) x6 x7 x8 x9 := by
  funext i
  obtain ⟨r, j, rfl⟩ : ∃ (r : Fin 100000) (j : Fin 64), i = ix2 r j := ⟨i 0, i 1, eq_ix2 i⟩
  -- the outer layer at (r, j): max (sum_k hidden (r, k) * Wb (k, j) + bb j) 0
  rw [val_main_v30_apply, val_main_v29_apply, val_main_v26_apply, val_main_v28_apply, val_main_v27_apply,
    val_main_call2_v0_apply, val_main_call2_cst_apply, bias28]
  -- the hidden layer at (r, k) under the sum: max (sum_l (x + agg) (r, l) * Wa (l, k) + ba k) 0; the relu's constant is 0
  simp only [lidx26, ridx26, val_main_v25_apply, val_main_v24_apply, val_main_v21_apply, val_main_v23_apply,
    val_main_v22_apply, val_main_call1_v0_apply, val_main_call1_cst_apply, val_main_v20_apply, lidx21, ridx21, bias23,
    Ideal.addf_def, Ideal.maximumf_def, Ideal.ofBits_def, Ideal.ofBits_zero_f32]
  rfl

/-! ## Index arithmetic of the second layer (all extents 64) -/

/-- The second contraction reads the hidden activations at (r, k). -/
theorem lidx57 (r : Fin 100000) (j k : Fin 64) : lidx_main_v57 (ix2 r j) k = ix2 r k :=
  funext fun a => Fin.ext (by match a with | ⟨0, _⟩ => rfl | ⟨1, _⟩ => rfl)
/-- The second contraction reads its weights at (k, j). -/
theorem ridx57 (r : Fin 100000) (j k : Fin 64) : ridx_main_v57 (ix2 r j) k = ix2 k j :=
  funext fun a => Fin.ext (by match a with | ⟨0, _⟩ => rfl | ⟨1, _⟩ => rfl)
/-- The first contraction, at the hidden entry (r, k), reads h + agg at (r, l). -/
theorem lidx52 (r : Fin 100000) (k l : Fin 64) : lidx_main_v52 (ix2 r k) l = ix2 r l :=
  funext fun a => Fin.ext (by match a with | ⟨0, _⟩ => rfl | ⟨1, _⟩ => rfl)
/-- The first contraction, at the hidden entry (r, k), reads its weights at (l, k). -/
theorem ridx52 (r : Fin 100000) (k l : Fin 64) : ridx_main_v52 (ix2 r k) l = ix2 l k :=
  funext fun a => Fin.ext (by match a with | ⟨0, _⟩ => rfl | ⟨1, _⟩ => rfl)
/-- The first bias is read at the column k. -/
theorem bias54 (r : Fin 100000) (k : Fin 64) : idx_main_v53 (idx_main_v54 (ix2 r k)) = ix1 k :=
  funext fun a => Fin.ext (by match a with | ⟨0, _⟩ => rfl)
/-- The second bias is read at the column j. -/
theorem bias59 (r : Fin 100000) (j : Fin 64) : idx_main_v58 (idx_main_v59 (ix2 r j)) = ix1 j :=
  funext fun a => Fin.ext (by match a with | ⟨0, _⟩ => rfl)

/-- The second-layer node stage, over the first layer's output and the second scatter-add stage. -/
theorem ref_v61 (x0 : (⟨S100000x7, .f32⟩ : BufTy).Contents (Elt Ideal)) (x1 : (⟨S1600000x4, .f32⟩ : BufTy).Contents (Elt Ideal)) (x2 : (⟨S4x7, .f32⟩ : BufTy).Contents (Elt Ideal)) (x3 : (⟨S7, .f32⟩ : BufTy).Contents (Elt Ideal))
    (x4 : (⟨S4x64, .f32⟩ : BufTy).Contents (Elt Ideal)) (x5 : (⟨S64, .f32⟩ : BufTy).Contents (Elt Ideal))
    (x6 : (⟨S7x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x16 : (⟨S2x1600000, .i32⟩ : BufTy).Contents (Elt Ideal)) :
    val_main_v61 (F := Ideal) x0 x1 x2 x3 x4 x5 x6 x7 x8 x9 x10 x11 x12 x13 x16
      = Cert.Gine.mlp (val_main_v30 (F := Ideal) x0 x1 x2 x3 x6 x7 x8 x9 x16)
          (val_main_v50 (F := Ideal) x0 x1 x2 x3 x4 x5 x6 x7 x8 x9 x16) x10 x11 x12 x13 := by
  funext i
  obtain ⟨r, j, rfl⟩ : ∃ (r : Fin 100000) (j : Fin 64), i = ix2 r j := ⟨i 0, i 1, eq_ix2 i⟩
  -- the outer layer at (r, j)
  rw [val_main_v61_apply, val_main_v60_apply, val_main_v57_apply, val_main_v59_apply, val_main_v58_apply,
    val_main_call5_v0_apply, val_main_call5_cst_apply, bias59]
  -- the hidden layer at (r, k) under the sum; the first layer's output and the second scatter-add stay as they are
  simp only [lidx57, ridx57, val_main_v56_apply, val_main_v55_apply, val_main_v52_apply, val_main_v54_apply,
    val_main_v53_apply, val_main_call4_v0_apply, val_main_call4_cst_apply, val_main_v51_apply, lidx52, ridx52, bias54,
    Ideal.addf_def, Ideal.maximumf_def, Ideal.ofBits_def, Ideal.ofBits_zero_f32]
  rfl

end Cert.ReferenceIdeal.NodeMlp

end
-- ==== Proof.KernelValue.lean ====
/-
  The result array of the four-region program, read back.

  The program is a line of fourteen segments: host operations, then in turn the per-edge linear map of layer one (a
  region), the messages of layer one (gather, sum, relu, scatter-add: host operations), the per-node map of layer one
  (a region), the per-edge linear map of layer two (a region), the messages of layer two, the per-node map of layer two
  (a region) and the pooling tail. The contents of every buffer at each boundary are a fold through these segments from
  the launch memory. This module walks that fold: a buffer that a segment does not write is carried back unchanged (a
  host stretch none of whose operations writes it; a region of which it is no array, or only an input), a buffer a host
  stretch writes is its operation's function of the operands read one boundary earlier, and a region's output array is
  the entry-by-entry map proved for it. Each value met on the way is identified with the corresponding stage of the
  reference program, so that the last lemma says: the result buffer at the last boundary is the reference's result
  stage of the launch arrays. The source indices being node indices is used at the two guarded gathers only.
-/
import proofs.«414903_j12919261627157_3_alg».proof.Defs
import proofs.«414903_j12919261627157_3_alg».proof.Proof.Gen.KernelIdeal.Frame
import proofs.«414903_j12919261627157_3_alg».proof.Proof.Gen.ReferenceIdeal.Read
import proofs.«414903_j12919261627157_3_alg».proof.Proof.Spec
import proofs.«414903_j12919261627157_3_alg».proof.Proof.TakeRows
import proofs.«414903_j12919261627157_3_alg».proof.Proof.EdgeLinKernel
import proofs.«414903_j12919261627157_3_alg».proof.Proof.EdgeLinRef
import proofs.«414903_j12919261627157_3_alg».proof.Proof.NodeMlpKernel
import proofs.«414903_j12919261627157_3_alg».proof.Proof.NodeMlpRef
import Idealize.ShloMosaic.Lib.StableHlo.Run
import Idealize.ShloMosaic.Lib.Pipeline.Value
import Idealize.ShloMosaic.Lib.ValueIdx

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- A host stretch none of whose operations writes the buffer leaves it as it was. -/
macro "hh" : tactic => `(tactic| (
  refine Eq.trans (StableHlo.after_of_forall_not_mem _ _ (List.forall_iff_forall_mem.mp ?_)) ?_
  · (simp only [hostOps0, hostOps1, hostOps1_1, hostOps1_2, hostOps1_3, hostOps3, hostOps3_1, hostOps3_2, hostOps3_3, hostOps4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
     repeat' apply And.intro
     all_goals (refine StableHlo.devRef_ne_of_ne ?_; decide))))
/-- A region of which the buffer is no array leaves it as it was (regions 3, 2, 1, 0). -/
macro "r3" : tactic => `(tactic| (refine Eq.trans (W13_of_ne _ _ _ _ ?_) ?_; · decide))
macro "r2" : tactic => `(tactic| (refine Eq.trans (W8_of_ne _ _ _ _ ?_) ?_; · decide))
macro "r1" : tactic => `(tactic| (refine Eq.trans (W7_of_ne _ _ _ _ ?_) ?_; · decide))
macro "r0" : tactic => `(tactic| (refine Eq.trans (W2_of_ne _ _ _ _ ?_) ?_; · decide))
/-- A region that only reads the buffer, through its input window w, leaves it as it was. -/
macro "in3 " w:num : tactic => `(tactic| refine Eq.trans ((W13_arr _ _ _ $w).trans (((dat3 (V12 _ _) _).arrAt_in $w rfl _).trans (A_eq3 (V12 _ _) _ $w))) ?_)
macro "in2 " w:num : tactic => `(tactic| refine Eq.trans ((W8_arr _ _ _ $w).trans (((dat2 (V7 _ _) _).arrAt_in $w rfl _).trans (A_eq2 (V7 _ _) _ $w))) ?_)
macro "in1 " w:num : tactic => `(tactic| refine Eq.trans ((W7_arr _ _ _ $w).trans (((dat1 (V6 _ _) _).arrAt_in $w rfl _).trans (A_eq1 (V6 _ _) _ $w))) ?_)
macro "in0 " w:num : tactic => `(tactic| refine Eq.trans ((W2_arr _ _ _ $w).trans (((dat0 (V1 _ _) _).arrAt_in $w rfl _).trans (A_eq0 (V1 _ _) _ $w))) ?_)

/-! ## Typed references: contents carried to a buffer's type and back -/

/-- Carrying contents to a typed reference's buffer type and back is the identity. -/
theorem ofBuf_toBuf {T : BufTy} (x : StableHlo.TRef sig T) (v : T.Contents (Elt Ideal)) : x.ofBuf (x.toBuf v) = v := by
  obtain ⟨r, h, h2, h3⟩ := x
  subst h
  rfl

theorem ofBuf_arg0 (v : (⟨S100000x7, .f32⟩ : BufTy).Contents (Elt Ideal)) :
    (StableHlo.TRef.of main_arg0 : StableHlo.TRef sig ⟨S100000x7, .f32⟩).ofBuf v = v := rfl
theorem ofBuf_v1 (v : (⟨S1600000, .i32⟩ : BufTy).Contents (Elt Ideal)) :
    (StableHlo.TRef.of main_v1 : StableHlo.TRef sig ⟨S1600000, .i32⟩).ofBuf v = v := rfl
theorem toBuf_v5 (v : (⟨S1600000x7, .f32⟩ : BufTy).Contents (Elt Ideal)) :
    (StableHlo.TRef.of main_v5 : StableHlo.TRef sig ⟨S1600000x7, .f32⟩).toBuf v = v := rfl
theorem ofBuf_v6 (v : (⟨S1600000x7, .f32⟩ : BufTy).Contents (Elt Ideal)) :
    (StableHlo.TRef.of main_v6 : StableHlo.TRef sig ⟨S1600000x7, .f32⟩).ofBuf v = v := rfl
theorem toBuf_v7 (v : (⟨S1600000x7, .f32⟩ : BufTy).Contents (Elt Ideal)) :
    (StableHlo.TRef.of main_v7 : StableHlo.TRef sig ⟨S1600000x7, .f32⟩).toBuf v = v := rfl
theorem ofBuf_v11 (v : (⟨S100000x64, .f32⟩ : BufTy).Contents (Elt Ideal)) :
    (StableHlo.TRef.of main_v11 : StableHlo.TRef sig ⟨S100000x64, .f32⟩).ofBuf v = v := rfl
theorem toBuf_v13 (v : (⟨S1600000x64, .f32⟩ : BufTy).Contents (Elt Ideal)) :
    (StableHlo.TRef.of main_v13 : StableHlo.TRef sig ⟨S1600000x64, .f32⟩).toBuf v = v := rfl
theorem ofBuf_v14 (v : (⟨S1600000x64, .f32⟩ : BufTy).Contents (Elt Ideal)) :
    (StableHlo.TRef.of main_v14 : StableHlo.TRef sig ⟨S1600000x64, .f32⟩).ofBuf v = v := rfl
theorem toBuf_v15 (v : (⟨S1600000x64, .f32⟩ : BufTy).Contents (Elt Ideal)) :
    (StableHlo.TRef.of main_v15 : StableHlo.TRef sig ⟨S1600000x64, .f32⟩).toBuf v = v := rfl

/-! ## The two index rows (host operations before the first region) -/

theorem W1_v1 (c : Dev nD) : W1 m ρ c (Proc.devRef .tc main_v1) = val_main_v1 (F := Ideal) (m ((c : Thread nD τ).loc main_arg16)) := by
  show StableHlo.after hostOps0 _ (Proc.devRef .tc main_v1) = _
  after_results
  rfl

theorem W1_v3 (c : Dev nD) : W1 m ρ c (Proc.devRef .tc main_v3) = val_main_v3 (F := Ideal) (m ((c : Thread nD τ).loc main_arg16)) := by
  show StableHlo.after hostOps0 _ (Proc.devRef .tc main_v3) = _
  after_results
  rfl

/-! ## Region 0: the first layer's per-edge linear map -/

theorem V1_arg1 (c : Dev nD) : V1 m ρ c main_arg1 = (m ((c : Thread nD τ).loc main_arg1)) := by
  show W1 m ρ c (Proc.devRef .tc main_arg1) = _
  hh
  rfl

theorem V1_arg2 (c : Dev nD) : V1 m ρ c main_arg2 = (m ((c : Thread nD τ).loc main_arg2)) := by
  show W1 m ρ c (Proc.devRef .tc main_arg2) = _
  hh
  rfl

theorem V1_arg3 (c : Dev nD) : V1 m ρ c main_arg3 = (m ((c : Thread nD τ).loc main_arg3)) := by
  show W1 m ρ c (Proc.devRef .tc main_arg3) = _
  hh
  rfl

theorem W2_v4 (c : Dev nD) : W2 m ρ c (Proc.devRef .tc main_v4) = val_main_v7 (F := Ideal) (m ((c : Thread nD τ).loc main_arg1)) (m ((c : Thread nD τ).loc main_arg2)) (m ((c : Thread nD τ).loc main_arg3)) := by
  refine (W2_arr m ρ c 3).trans ((Cert.KernelIdeal.EdgeLin.final0 (V1 m ρ) c).trans ?_)
  rw [V1_arg1 m ρ c, V1_arg2 m ρ c, V1_arg3 m ρ c]
  exact (Cert.ReferenceIdeal.EdgeLin.ref_v7 _ _ _).symm

/-! ## The first layer's messages: row gather, sum with the edge map, relu, scatter-add into the destination nodes -/

theorem W2_v1 (c : Dev nD) : W2 m ρ c (Proc.devRef .tc main_v1) = val_main_v1 (F := Ideal) (m ((c : Thread nD τ).loc main_arg16)) := by
  r0
  exact W1_v1 m ρ c

theorem W2_arg0 (c : Dev nD) : W2 m ρ c (Proc.devRef .tc main_arg0) = (m ((c : Thread nD τ).loc main_arg0)) := by
  r0; hh
  rfl

/-- The guarded row gather of the node features is the reference's plain gather: every source index is a node index. -/
theorem W3_v5 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W3 m ρ c (Proc.devRef .tc main_v5) = val_main_v14 (F := Ideal) (m ((c : Thread nD τ).loc main_arg0)) (m ((c : Thread nD τ).loc main_arg16)) := by
  have e0 := W2_arg0 m ρ c
  have e1 := W2_v1 m ρ c
  show StableHlo.after hostOps1 (W2 m ρ c) (Proc.devRef .tc main_v5) = _
  generalize W2 m ρ c = V at e0 e1 ⊢
  after_results_simp
  rw [e0, e1]
  simp only [ofBuf_toBuf, ofBuf_arg0, ofBuf_v1, toBuf_v5]
  refine Eq.trans ?_ ((Cert.KernelIdeal.TakeRows.take7 (m ((c : Thread nD τ).loc main_arg0)) (val_main_v1 (F := Ideal) (m ((c : Thread nD τ).loc main_arg16))) hs).trans ?_)
  · rfl
  · rfl

theorem W3_v4 (c : Dev nD) : W3 m ρ c (Proc.devRef .tc main_v4) = val_main_v7 (F := Ideal) (m ((c : Thread nD τ).loc main_arg1)) (m ((c : Thread nD τ).loc main_arg2)) (m ((c : Thread nD τ).loc main_arg3)) := by
  hh
  exact W2_v4 m ρ c

theorem W4_v6 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W4 m ρ c (Proc.devRef .tc main_v6) = val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg16)) := by
  have e0 := W3_v5 m ρ c hs
  have e1 := W3_v4 m ρ c
  show StableHlo.after hostOps1_1 (W3 m ρ c) (Proc.devRef .tc main_v6) = _
  generalize W3 m ρ c = V at e0 e1 ⊢
  after_results
  rw [e0, e1]
  rfl

theorem W5_v7 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W5 m ρ c (Proc.devRef .tc main_v7) = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg16)) := by
  have e0 := W4_v6 m ρ c hs
  show StableHlo.after hostOps1_2 (W4 m ρ c) (Proc.devRef .tc main_v7) = _
  generalize W4 m ρ c = V at e0 ⊢
  after_results_simp
  rw [e0]
  simp only [ofBuf_toBuf, ofBuf_v6, toBuf_v7]
  rfl

theorem W5_v3 (c : Dev nD) : W5 m ρ c (Proc.devRef .tc main_v3) = val_main_v3 (F := Ideal) (m ((c : Thread nD τ).loc main_arg16)) := by
  hh; hh; hh; r0
  exact W1_v3 m ρ c

theorem W6_v10 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W6 m ρ c (Proc.devRef .tc main_v10) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg16)) := by
  have e0 := W5_v3 m ρ c
  have e1 := W5_v7 m ρ c hs
  show StableHlo.after hostOps1_3 (W5 m ρ c) (Proc.devRef .tc main_v10) = _
  generalize W5 m ρ c = V at e0 e1 ⊢
  after_results
  rw [e0, e1]
  rfl

/-! ## Region 1: the first layer's per-node map -/

theorem V6_arg0 (c : Dev nD) : V6 m ρ c main_arg0 = (m ((c : Thread nD τ).loc main_arg0)) := by
  show W6 m ρ c (Proc.devRef .tc main_arg0) = _
  hh; hh; hh; hh; r0; hh
  rfl

theorem V6_arg6 (c : Dev nD) : V6 m ρ c main_arg6 = (m ((c : Thread nD τ).loc main_arg6)) := by
  show W6 m ρ c (Proc.devRef .tc main_arg6) = _
  hh; hh; hh; hh; r0; hh
  rfl

theorem V6_arg7 (c : Dev nD) : V6 m ρ c main_arg7 = (m ((c : Thread nD τ).loc main_arg7)) := by
  show W6 m ρ c (Proc.devRef .tc main_arg7) = _
  hh; hh; hh; hh; r0; hh
  rfl

theorem V6_arg8 (c : Dev nD) : V6 m ρ c main_arg8 = (m ((c : Thread nD τ).loc main_arg8)) := by
  show W6 m ρ c (Proc.devRef .tc main_arg8) = _
  hh; hh; hh; hh; r0; hh
  rfl

theorem V6_arg9 (c : Dev nD) : V6 m ρ c main_arg9 = (m ((c : Thread nD τ).loc main_arg9)) := by
  show W6 m ρ c (Proc.devRef .tc main_arg9) = _
  hh; hh; hh; hh; r0; hh
  rfl

theorem W7_v11 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W7 m ρ c (Proc.devRef .tc main_v11) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  refine (W7_arr m ρ c 6).trans ((Cert.KernelIdeal.NodeMlp.final1 (V6 m ρ) c).trans ?_)
  rw [V6_arg0 m ρ c, V6_arg6 m ρ c, V6_arg7 m ρ c, V6_arg8 m ρ c, V6_arg9 m ρ c,
    show V6 m ρ c main_v10 = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg16)) from W6_v10 m ρ c hs]
  exact (Cert.ReferenceIdeal.NodeMlp.ref_v30 _ _ _ _ _ _ _ _ _).symm

/-! ## Region 2: the second layer's per-edge linear map -/

theorem V7_arg1 (c : Dev nD) : V7 m ρ c main_arg1 = (m ((c : Thread nD τ).loc main_arg1)) := by
  show W7 m ρ c (Proc.devRef .tc main_arg1) = _
  r1; hh; hh; hh; hh; in0 0; hh
  rfl

theorem V7_arg4 (c : Dev nD) : V7 m ρ c main_arg4 = (m ((c : Thread nD τ).loc main_arg4)) := by
  show W7 m ρ c (Proc.devRef .tc main_arg4) = _
  r1; hh; hh; hh; hh; r0; hh
  rfl

theorem V7_arg5 (c : Dev nD) : V7 m ρ c main_arg5 = (m ((c : Thread nD τ).loc main_arg5)) := by
  show W7 m ρ c (Proc.devRef .tc main_arg5) = _
  r1; hh; hh; hh; hh; r0; hh
  rfl

theorem W8_v12 (c : Dev nD) : W8 m ρ c (Proc.devRef .tc main_v12) = val_main_v38 (F := Ideal) (m ((c : Thread nD τ).loc main_arg1)) (m ((c : Thread nD τ).loc main_arg4)) (m ((c : Thread nD τ).loc main_arg5)) := by
  refine (W8_arr m ρ c 3).trans ((Cert.KernelIdeal.EdgeLin.final2 (V7 m ρ) c).trans ?_)
  rw [V7_arg1 m ρ c, V7_arg4 m ρ c, V7_arg5 m ρ c]
  exact (Cert.ReferenceIdeal.EdgeLin.ref_v38 _ _ _).symm

/-! ## The second layer's messages -/

theorem W8_v11 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W8 m ρ c (Proc.devRef .tc main_v11) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  r2
  exact W7_v11 m ρ c hs

theorem W8_v1 (c : Dev nD) : W8 m ρ c (Proc.devRef .tc main_v1) = val_main_v1 (F := Ideal) (m ((c : Thread nD τ).loc main_arg16)) := by
  r2; r1; hh; hh; hh; hh; r0
  exact W1_v1 m ρ c

/-- The guarded row gather of the first layer's output is the reference's plain gather. -/
theorem W9_v13 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W9 m ρ c (Proc.devRef .tc main_v13) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  have e0 := W8_v11 m ρ c hs
  have e1 := W8_v1 m ρ c
  show StableHlo.after hostOps3 (W8 m ρ c) (Proc.devRef .tc main_v13) = _
  generalize W8 m ρ c = V at e0 e1 ⊢
  after_results_simp
  rw [e0, e1]
  simp only [ofBuf_toBuf, ofBuf_v11, ofBuf_v1, toBuf_v13]
  refine Eq.trans ?_ ((Cert.KernelIdeal.TakeRows.take64 (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16))) (val_main_v1 (F := Ideal) (m ((c : Thread nD τ).loc main_arg16))) hs).trans ?_)
  · rfl
  · rfl

theorem W9_v12 (c : Dev nD) : W9 m ρ c (Proc.devRef .tc main_v12) = val_main_v38 (F := Ideal) (m ((c : Thread nD τ).loc main_arg1)) (m ((c : Thread nD τ).loc main_arg4)) (m ((c : Thread nD τ).loc main_arg5)) := by
  hh
  exact W8_v12 m ρ c

theorem W10_v14 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W10 m ρ c (Proc.devRef .tc main_v14) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) := by
  have e0 := W9_v13 m ρ c hs
  have e1 := W9_v12 m ρ c
  show StableHlo.after hostOps3_1 (W9 m ρ c) (Proc.devRef .tc main_v14) = _
  generalize W9 m ρ c = V at e0 e1 ⊢
  after_results
  rw [e0, e1]
  rfl

theorem W11_v15 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W11 m ρ c (Proc.devRef .tc main_v15) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) := by
  have e0 := W10_v14 m ρ c hs
  show StableHlo.after hostOps3_2 (W10 m ρ c) (Proc.devRef .tc main_v15) = _
  generalize W10 m ρ c = V at e0 ⊢
  after_results_simp
  rw [e0]
  simp only [ofBuf_toBuf, ofBuf_v14, toBuf_v15]
  rfl

theorem W11_v3 (c : Dev nD) : W11 m ρ c (Proc.devRef .tc main_v3) = val_main_v3 (F := Ideal) (m ((c : Thread nD τ).loc main_arg16)) := by
  hh; hh; hh; r2; r1; hh; hh; hh; hh; r0
  exact W1_v3 m ρ c

theorem W12_v18 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W12 m ρ c (Proc.devRef .tc main_v18) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) := by
  have e0 := W11_v3 m ρ c
  have e1 := W11_v15 m ρ c hs
  show StableHlo.after hostOps3_3 (W11 m ρ c) (Proc.devRef .tc main_v18) = _
  generalize W11 m ρ c = V at e0 e1 ⊢
  after_results
  rw [e0, e1]
  rfl

/-! ## Region 3: the second layer's per-node map -/

theorem V12_arg10 (c : Dev nD) : V12 m ρ c main_arg10 = (m ((c : Thread nD τ).loc main_arg10)) := by
  show W12 m ρ c (Proc.devRef .tc main_arg10) = _
  hh; hh; hh; hh; r2; r1; hh; hh; hh; hh; r0; hh
  rfl

theorem V12_arg11 (c : Dev nD) : V12 m ρ c main_arg11 = (m ((c : Thread nD τ).loc main_arg11)) := by
  show W12 m ρ c (Proc.devRef .tc main_arg11) = _
  hh; hh; hh; hh; r2; r1; hh; hh; hh; hh; r0; hh
  rfl

theorem V12_arg12 (c : Dev nD) : V12 m ρ c main_arg12 = (m ((c : Thread nD τ).loc main_arg12)) := by
  show W12 m ρ c (Proc.devRef .tc main_arg12) = _
  hh; hh; hh; hh; r2; r1; hh; hh; hh; hh; r0; hh
  rfl

theorem V12_arg13 (c : Dev nD) : V12 m ρ c main_arg13 = (m ((c : Thread nD τ).loc main_arg13)) := by
  show W12 m ρ c (Proc.devRef .tc main_arg13) = _
  hh; hh; hh; hh; r2; r1; hh; hh; hh; hh; r0; hh
  rfl

theorem V12_v11 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    V12 m ρ c main_v11 = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  show W12 m ρ c (Proc.devRef .tc main_v11) = _
  hh; hh; hh; hh
  exact W8_v11 m ρ c hs

theorem W13_v19 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W13 m ρ c (Proc.devRef .tc main_v19) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  refine (W13_arr m ρ c 6).trans ((Cert.KernelIdeal.NodeMlp.final3 (V12 m ρ) c).trans ?_)
  rw [V12_arg10 m ρ c, V12_arg11 m ρ c, V12_arg12 m ρ c, V12_arg13 m ρ c, V12_v11 m ρ c hs,
    show V12 m ρ c main_v18 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) from W12_v18 m ρ c hs]
  exact (Cert.ReferenceIdeal.NodeMlp.ref_v61 _ _ _ _ _ _ _ _ _ _ _ _ _ _ _).symm

/-! ## The pooling tail: per-graph sums and counts by scatter-add, the mean, the classifier -/

theorem W13_arg14 (c : Dev nD) : W13 m ρ c (Proc.devRef .tc main_arg14) = (m ((c : Thread nD τ).loc main_arg14)) := by
  r3; hh; hh; hh; hh; r2; r1; hh; hh; hh; hh; r0; hh
  rfl

theorem W13_arg15 (c : Dev nD) : W13 m ρ c (Proc.devRef .tc main_arg15) = (m ((c : Thread nD τ).loc main_arg15)) := by
  r3; hh; hh; hh; hh; r2; r1; hh; hh; hh; hh; r0; hh
  rfl

theorem W13_arg17 (c : Dev nD) : W13 m ρ c (Proc.devRef .tc main_arg17) = (m ((c : Thread nD τ).loc main_arg17)) := by
  r3; hh; hh; hh; hh; r2; r1; hh; hh; hh; hh; r0; hh
  rfl

set_option maxHeartbeats 1600000 in
/-- The result buffer at the program's last boundary is the reference's result stage of the launch arrays. -/
theorem W14_v34 (c : Dev nD) (hs : ∀ e : Cert.ReferenceIdeal.S1600000.Idx, (0#32).sle (val_main_v1 (F := Ideal) (m ((c : Thread nD τ).loc main_arg16)) e) = true ∧ (val_main_v1 (F := Ideal) (m ((c : Thread nD τ).loc main_arg16)) e).slt 100000#32 = true) :
    W14 m ρ c (Proc.devRef .tc main_v34) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have e0 := W13_v19 m ρ c hs
  have e1 := W13_arg14 m ρ c
  have e2 := W13_arg15 m ρ c
  have e3 := W13_arg17 m ρ c
  show StableHlo.after hostOps4 (W13 m ρ c) (Proc.devRef .tc main_v34) = _
  generalize W13 m ρ c = V at e0 e1 e2 e3 ⊢
  after_results_simp
  rw [e0, e1, e2, e3]
  rfl

end Cert.KernelIdeal.Walk
end
-- ==== Proof.lean ====
/-
  The kernel is a two-layer edge-conditioned graph network (GINE) followed by a per-graph mean and a linear classifier,
  on 100000 nodes, 1600000 edges and 1000 graphs. Per layer of width d: the per-edge linear map
  e = edge_attr · W_e + b_e (a tiled kernel over 200 blocks of 8000 edges), the message relu (x[src] + e), its sum into the
  destination node (a scatter-add), and the per-node map relu (relu ((x + agg) · Wa + ba) · Wb + bb) (a tiled kernel over
  20 blocks of 5000 nodes). The reference computes the same with whole-array matrix products on the host.

  Over the extended reals the two agree stage by stage. The four tiled kernels each leave their output array at the
  entry-by-entry formula of Spec.lean (the matrix products into a zero accumulator are plain sums, a change of float
  format is the identity, a block of the output is the formula at the block's rows, the blocks cover every row), and
  the reference's matrix products read at an index are the same sums. The gather, the scatter-adds, the relus and the
  pooling tail are the same host operations in both programs, applied to equal arrays. The one difference is the row
  gather: the kernel's replaces a row whose index is out of range by a fill value where the reference's clamps the index;
  under the precondition's last conjunct, that every source index of the edge list is a node index (0 ≤ src < 100000),
  the guard is true at every edge and the two gathers are the same rows. That conjunct is used exactly there; the
  finiteness conjuncts are not needed (no law used here fails at an infinity: sums and products are only regrouped by
  index, never distributed).

  The frames of the two kernel programs are the generated ones; the reference's frame is its generated run with the
  result dropped. The kernel program's run with its result named calls the launch theorem of the generated frame once
  more (KernelRun.lean), and KernelValue.lean reads the result buffer back through the program's segments.
-/
import proofs.«414903_j12919261627157_3_alg».proof.Defs
import proofs.«414903_j12919261627157_3_alg».proof.Proof.Gen.Kernel
import proofs.«414903_j12919261627157_3_alg».proof.Proof.Gen.Kernel.Skeleton
import proofs.«414903_j12919261627157_3_alg».proof.Proof.Gen.Kernel.Launch
import proofs.«414903_j12919261627157_3_alg».proof.Proof.Gen.Kernel.Points
import proofs.«414903_j12919261627157_3_alg».proof.Proof.Gen.Kernel.Frame
import proofs.«414903_j12919261627157_3_alg».proof.Proof.Gen.KernelIdeal
import proofs.«414903_j12919261627157_3_alg».proof.Proof.Gen.KernelIdeal.Skeleton
import proofs.«414903_j12919261627157_3_alg».proof.Proof.Gen.KernelIdeal.Launch
import proofs.«414903_j12919261627157_3_alg».proof.Proof.Gen.KernelIdeal.Points
import proofs.«414903_j12919261627157_3_alg».proof.Proof.Gen.KernelIdeal.Frame
import proofs.«414903_j12919261627157_3_alg».proof.Proof.Gen.ReferenceIdeal
import proofs.«414903_j12919261627157_3_alg».proof.Proof.Gen.ReferenceIdeal.Run
import proofs.«414903_j12919261627157_3_alg».proof.Proof.Gen.ReferenceIdeal.Read
import proofs.«414903_j12919261627157_3_alg».proof.Proof.Gen.Pre_finite_inputs
import proofs.«414903_j12919261627157_3_alg».proof.Proof.SrcRange
import proofs.«414903_j12919261627157_3_alg».proof.Proof.KernelRun
import proofs.«414903_j12919261627157_3_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- The reference's result stage at equal arrays. -/
theorem result_congr
    {a0 b0 : (⟨Cert.ReferenceIdeal.S100000x7, .f32⟩ : BufTy).Contents (Elt Ideal)}
    {a1 b1 : (⟨Cert.ReferenceIdeal.S1600000x4, .f32⟩ : BufTy).Contents (Elt Ideal)}
    {a2 b2 : (⟨Cert.ReferenceIdeal.S4x7, .f32⟩ : BufTy).Contents (Elt Ideal)}
    {a3 b3 : (⟨Cert.ReferenceIdeal.S7, .f32⟩ : BufTy).Contents (Elt Ideal)}
    {a4 b4 : (⟨Cert.ReferenceIdeal.S4x64, .f32⟩ : BufTy).Contents (Elt Ideal)}
    {a5 b5 : (⟨Cert.ReferenceIdeal.S64, .f32⟩ : BufTy).Contents (Elt Ideal)}
    {a6 b6 : (⟨Cert.ReferenceIdeal.S7x64, .f32⟩ : BufTy).Contents (Elt Ideal)}
    {a7 b7 : (⟨Cert.ReferenceIdeal.S64, .f32⟩ : BufTy).Contents (Elt Ideal)}
    {a8 b8 : (⟨Cert.ReferenceIdeal.S64x64, .f32⟩ : BufTy).Contents (Elt Ideal)}
    {a9 b9 : (⟨Cert.ReferenceIdeal.S64, .f32⟩ : BufTy).Contents (Elt Ideal)}
    {a10 b10 : (⟨Cert.ReferenceIdeal.S64x64, .f32⟩ : BufTy).Contents (Elt Ideal)}
    {a11 b11 : (⟨Cert.ReferenceIdeal.S64, .f32⟩ : BufTy).Contents (Elt Ideal)}
    {a12 b12 : (⟨Cert.ReferenceIdeal.S64x64, .f32⟩ : BufTy).Contents (Elt Ideal)}
    {a13 b13 : (⟨Cert.ReferenceIdeal.S64, .f32⟩ : BufTy).Contents (Elt Ideal)}
    {a14 b14 : (⟨Cert.ReferenceIdeal.S64x12, .f32⟩ : BufTy).Contents (Elt Ideal)}
    {a15 b15 : (⟨Cert.ReferenceIdeal.S12, .f32⟩ : BufTy).Contents (Elt Ideal)}
    {a16 b16 : (⟨Cert.ReferenceIdeal.S2x1600000, .i32⟩ : BufTy).Contents (Elt Ideal)}
    {a17 b17 : (⟨Cert.ReferenceIdeal.S100000, .i32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) :
    Cert.ReferenceIdeal.Read.val_main_v76 (F := Ideal) a0 a1 a2 a3 a4 a5 a6 a7 a8 a9 a10 a11 a12 a13 a14 a15 a16 a17
      = Cert.ReferenceIdeal.Read.val_main_v76 (F := Ideal) b0 b1 b2 b3 b4 b5 b6 b7 b8 b9 b10 b11 b12 b13 b14 b15 b16 b17 := by
  subst h0 h1 h2 h3 h4 h5 h6 h7 h8 h9 h10 h11 h12 h13 h14 h15 h16 h17
  rfl

/-- Both programs end with the result array at the reference's result stage of the launch arrays: the kernel program by
    reading its result buffer back through its segments (the source indices in range by the precondition), the
    reference by its generated run, the arguments of the two memories agreeing. -/
theorem algebraic : Cert.algebraic_KernelIdeal_ReferenceIdeal := by
  intro m ρ m' ρ' hpre hagree
  have hs : ∀ (c : Dev Cert.KernelIdeal.nD) (e : Cert.ReferenceIdeal.S1600000.Idx),
      (0#32).sle (Cert.ReferenceIdeal.Read.val_main_v1 (F := Ideal) (m ((c.tc : Thread Cert.KernelIdeal.nD Cert.KernelIdeal.τ).loc Cert.KernelIdeal.main_arg16)) e) = true
      ∧ (Cert.ReferenceIdeal.Read.val_main_v1 (F := Ideal) (m ((c.tc : Thread Cert.KernelIdeal.nD Cert.KernelIdeal.τ).loc Cert.KernelIdeal.main_arg16)) e).slt 100000#32 = true :=
    fun c e => Cert.Pre_finite_inputs.SrcRange.src_in_range _ _ _ _ _ _ _ _ _ _ _ _ _ _ _ _ _ _ (hpre c) e
  refine ⟨fun c => Cert.ReferenceIdeal.Read.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Walk.W14_v34 m ρ c (hs c)), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    exact (Cert.ReferenceIdeal.Read.val_main_v76_eq m' c).trans (result_congr h0 h1 h2 h3 h4 h5 h6 h7 h8 h9 h10 h11 h12 h13 h14 h15 h16 h17)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
